-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1200000 : Shape := ⟨2, ![2, 1200000]⟩
abbrev S64x16 : Shape := ⟨2, ![64, 16]⟩
abbrev S64 : Shape := ⟨1, ![64]⟩
abbrev S64x64 : Shape := ⟨2, ![64, 64]⟩
abbrev S16x128 : Shape := ⟨2, ![16, 128]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part3 {F : FTy → Type} [FloatOps F] (main_arg1 : IVec S2x1200000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S2x1200000 32 := broadcastInDim S2x1200000 ![] bcast_S_S2x1200000 main_c_20
  let main_v55 : IVec S2x1200000 1 := cmpi .sge main_arg1 main_v54
  let main_c_21 : IVec S_ 32 := constantI S_ 32 100000#32
  let main_v56 : IVec S2x1200000 32 := broadcastInDim S2x1200000 ![] bcast_S_S2x1200000 main_c_21
  let main_v57 : IVec S2x1200000 1 := cmpi .slt main_arg1 main_v56
  let main_v58 : IVec S2x1200000 1 := andi main_v55 main_v57
  let main_c_22 : IVec S_ 1 := constantI S_ 1 1#1
  let main_v59 : IVec S_ 1 := (fun x v => Host.reduce IntOp.andi x v reducesTo_S2x1200000_S_d0_1 h_S_) main_v58 main_c_22
  let main_v60 : IVec S_ 1 := andi main_v53 main_v59
  main_v60

def fn_part2 {F : FTy → Type} [FloatOps F] (main_arg1 : IVec S2x1200000 32) (main_arg8 : FVec F S16x128 .f32) (main_arg9 : FVec F S16 .f32) (main_arg10 : FVec F S1x16 .f32) (main_arg11 : FVec F S1 .f32) (main_v33 : IVec S_ 1) : IVec S_ 1 :=
  let main_v34 : FVec F S16x128 .f32 := Host.absf main_arg8
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S1x16 .f32 := Host.absf main_arg10
  let main_cst_16 : FVec F S_ .f32 := constant S_ .f32 0x7F800000#32
  let main_v45 : FVec F S1x16 .f32 := broadcastInDim S1x16 ![] bcast_S_S1x16 main_cst_16
  let main_v46 : IVec S1x16 1 := cmpf .olt main_v44 main_v45
  let main_c_17 : IVec S_ 1 := constantI S_ 1 1#1
  let main_v47 : IVec S_ 1 := (fun x v => Host.reduce IntOp.andi x v reducesTo_S1x16_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg1 main_v48 main_v49 main_v50

def fn_part1 {F : FTy → Type} [FloatOps F] (main_arg1 : IVec S2x1200000 32) (main_arg5 : FVec F S64x64 .f32) (main_arg6 : FVec F S64 .f32) (main_arg7 : FVec F S64x64 .f32) (main_arg8 : FVec F S16x128 .f32) (main_arg9 : FVec F S16 .f32) (main_arg10 : FVec F S1x16 .f32) (main_arg11 : FVec F S1 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x16 .f32) (main_arg1 : IVec S2x1200000 32) (main_arg2 : FVec F S64x16 .f32) (main_arg3 : FVec F S64 .f32) (main_arg4 : FVec F S64x16 .f32) (main_arg5 : FVec F S64x64 .f32) (main_arg6 : FVec F S64 .f32) (main_arg7 : FVec F S64x64 .f32) (main_arg8 : FVec F S16x128 .f32) (main_arg9 : FVec F S16 .f32) (main_arg10 : FVec F S1x16 .f32) (main_arg11 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg1 main_arg5 main_arg6 main_arg7 main_arg8 main_arg9 main_arg10 main_arg11 main_v13 main_v16
-- ==== Kernel.lean ====
abbrev S100000x16 : Shape := ⟨2, ![100000, 16]⟩
abbrev S2x1200000 : Shape := ⟨2, ![2, 1200000]⟩
abbrev S64x16 : Shape := ⟨2, ![64, 16]⟩
abbrev S64 : Shape := ⟨1, ![64]⟩
abbrev S64x64 : Shape := ⟨2, ![64, 64]⟩
abbrev S16x128 : Shape := ⟨2, ![16, 128]⟩
abbrev S16 : Shape := ⟨1, ![16]⟩
abbrev S1x16 : Shape := ⟨2, ![1, 16]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1x1 : Shape := ⟨2, ![1, 1]⟩
abbrev S1200000x16 : Shape := ⟨2, ![1200000, 16]⟩
abbrev S100000x1 : Shape := ⟨2, ![100000, 1]⟩
abbrev S1x64 : Shape := ⟨2, ![1, 64]⟩
abbrev S100000x64 : Shape := ⟨2, ![100000, 64]⟩
abbrev S10000x16 : Shape := ⟨2, ![10000, 16]⟩
abbrev S10000x64 : Shape := ⟨2, ![10000, 64]⟩
abbrev S16x64 : Shape := ⟨2, ![16, 64]⟩
abbrev S1200000x64 : Shape := ⟨2, ![1200000, 64]⟩
abbrev S1204224x64 : Shape := ⟨2, ![1204224, 64]⟩
abbrev S1204224 : Shape := ⟨1, ![1204224]⟩
abbrev S8192x64 : Shape := ⟨2, ![8192, 64]⟩
abbrev S8192 : Shape := ⟨1, ![8192]⟩
abbrev S8192x128 : Shape := ⟨2, ![8192, 128]⟩
abbrev S128x16 : Shape := ⟨2, ![128, 16]⟩
abbrev S8192x16 : Shape := ⟨2, ![8192, 16]⟩
abbrev S16x1 : Shape := ⟨2, ![16, 1]⟩
abbrev S8192x1 : Shape := ⟨2, ![8192, 1]⟩

abbrev nBuf : Space → Nat
  | .hbm => 152
  | .vmem => 28
  | .smem => 0
  | _ => 0

abbrev hbmTy0_0 (i : Nat) : BufTy := match i % 128 with
  | 0 => ⟨S100000x16, .f32⟩
  | 1 => ⟨S2x1200000, .i32⟩
  | 2 => ⟨S64x16, .f32⟩
  | 3 => ⟨S64, .f32⟩
  | 4 => ⟨S64x16, .f32⟩
  | 5 => ⟨S64x64, .f32⟩
  | 6 => ⟨S64, .f32⟩
  | 7 => ⟨S64x64, .f32⟩
  | 8 => ⟨S16x128, .f32⟩
  | 9 => ⟨S16, .f32⟩
  | 10 => ⟨S1x16, .f32⟩
  | 11 => ⟨S1, .f32⟩
  | 12 => ⟨S1x1200000, .i32⟩
  | 13 => ⟨S1200000, .i32⟩
  | 14 => ⟨S1x1200000, .i32⟩
  | 15 => ⟨S1200000, .i32⟩
  | 16 => ⟨S_, .i32⟩
  | 17 => ⟨S1200000, .i32⟩
  | 18 => ⟨S1200000, .i1⟩
  | 19 => ⟨S_, .i32⟩
  | 20 => ⟨S1200000, .i32⟩
  | 21 => ⟨S1200000, .i32⟩
  | 22 => ⟨S1200000, .i32⟩
  | 23 => ⟨S1200000x1, .i32⟩
  | 24 => ⟨S1, .i32⟩
  | 25 => ⟨S_, .i32⟩
  | 26 => ⟨S1200000x1, .i32⟩
  | 27 => ⟨S1200000x1, .i1⟩
  | 28 => ⟨S1x1, .i32⟩
  | 29 => ⟨S1200000x1, .i32⟩
  | 30 => ⟨S1200000x1, .i1⟩
  | 31 => ⟨S1200000x1, .i1⟩
  | 32 => ⟨S_, .i1⟩
  | 33 => ⟨S1200000, .i1⟩
  | 34 => ⟨S1200000x16, .f32⟩
  | 35 => ⟨S1200000x16, .i1⟩
  | 36 => ⟨S_, .f32⟩
  | 37 => ⟨S1200000x16, .f32⟩
  | 38 => ⟨S1200000x16, .f32⟩
  | 39 => ⟨S_, .f32⟩
  | 40 => ⟨S100000x16, .f32⟩
  | 41 => ⟨S1200000x1, .i32⟩
  | 42 => ⟨S100000x16, .f32⟩
  | 43 => ⟨S_, .f32⟩
  | 44 => ⟨S1200000x1, .f32⟩
  | 45 => ⟨S_, .f32⟩
  | 46 => ⟨S100000x1, .f32⟩
  | 47 => ⟨S1200000x1, .i32⟩
  | 48 => ⟨S100000x1, .f32⟩
  | 49 => ⟨S_, .f32⟩
  | 50 => ⟨S100000x1, .f32⟩
  | 51 => ⟨S100000x1, .f32⟩
  | 52 => ⟨S100000x16, .f32⟩
  | 53 => ⟨S100000x16, .f32⟩
  | 54 => ⟨S1x64, .f32⟩
  | 55 => ⟨S100000x64, .f32⟩
  | 56 => ⟨S_, .i32⟩
  | 57 => ⟨S1200000, .i32⟩
  | 58 => ⟨S1200000, .i1⟩
  | 59 => ⟨S_, .i32⟩
  | 60 => ⟨S1200000, .i32⟩
  | 61 => ⟨S1200000, .i32⟩
  | 62 => ⟨S1200000, .i32⟩
  | 63 => ⟨S1200000x1, .i32⟩
  | 64 => ⟨S1, .i32⟩
  | 65 => ⟨S_, .i32⟩
  | 66 => ⟨S1200000x1, .i32⟩
  | 67 => ⟨S1200000x1, .i1⟩
  | 68 => ⟨S1x1, .i32⟩
  | 69 => ⟨S1200000x1, .i32⟩
  | 70 => ⟨S1200000x1, .i1⟩
  | 71 => ⟨S1200000x1, .i1⟩
  | 72 => ⟨S_, .i1⟩
  | 73 => ⟨S1200000, .i1⟩
  | 74 => ⟨S1200000x64, .f32⟩
  | 75 => ⟨S1200000x64, .i1⟩
  | 76 => ⟨S_, .f32⟩
  | 77 => ⟨S1200000x64, .f32⟩
  | 78 => ⟨S1200000x64, .f32⟩
  | 79 => ⟨S_, .f32⟩
  | 80 => ⟨S100000x64, .f32⟩
  | 81 => ⟨S1200000x1, .i32⟩
  | 82 => ⟨S100000x64, .f32⟩
  | 83 => ⟨S_, .f32⟩
  | 84 => ⟨S1200000x1, .f32⟩
  | 85 => ⟨S_, .f32⟩
  | 86 => ⟨S100000x1, .f32⟩
  | 87 => ⟨S1200000x1, .i32⟩
  | 88 => ⟨S100000x1, .f32⟩
  | 89 => ⟨S_, .f32⟩
  | 90 => ⟨S100000x1, .f32⟩
  | 91 => ⟨S100000x1, .f32⟩
  | 92 => ⟨S100000x64, .f32⟩
  | 93 => ⟨S100000x64, .f32⟩
  | 94 => ⟨S1x64, .f32⟩
  | 95 => ⟨S100000x64, .f32⟩
  | 96 => ⟨S_, .i32⟩
  | 97 => ⟨S1200000, .i32⟩
  | 98 => ⟨S1200000, .i1⟩
  | 99 => ⟨S_, .i32⟩
  | 100 => ⟨S1200000, .i32⟩
  | 101 => ⟨S1200000, .i32⟩
  | 102 => ⟨S1200000, .i32⟩
  | 103 => ⟨S1200000x1, .i32⟩
  | 104 => ⟨S1, .i32⟩
  | 105 => ⟨S_, .i32⟩
  | 106 => ⟨S1200000x1, .i32⟩
  | 107 => ⟨S1200000x1, .i1⟩
  | 108 => ⟨S1x1, .i32⟩
  | 109 => ⟨S1200000x1, .i32⟩
  | 110 => ⟨S1200000x1, .i1⟩
  | 111 => ⟨S1200000x1, .i1⟩
  | 112 => ⟨S_, .i1⟩
  | 113 => ⟨S1200000, .i1⟩
  | 114 => ⟨S1200000x64, .f32⟩
  | 115 => ⟨S1200000x64, .i1⟩
  | 116 => ⟨S_, .f32⟩
  | 117 => ⟨S1200000x64, .f32⟩
  | 118 => ⟨S1200000x64, .f32⟩
  | 119 => ⟨S_, .i32⟩
  | 120 => ⟨S1200000, .i32⟩
  | 121 => ⟨S1200000, .i1⟩
  | 122 => ⟨S_, .i32⟩
  | 123 => ⟨S1200000, .i32⟩
  | 124 => ⟨S1200000, .i32⟩
  | 125 => ⟨S1200000, .i32⟩
  | 126 => ⟨S1200000x1, .i32⟩
  | 127 => ⟨S1, .i32⟩
  | _ => ⟨S100000x16, .f32⟩

abbrev hbmTy0_1 (i : Nat) : BufTy := match i % 128 with
  | 0 => ⟨S_, .i32⟩
  | 1 => ⟨S1200000x1, .i32⟩
  | 2 => ⟨S1200000x1, .i1⟩
  | 3 => ⟨S1x1, .i32⟩
  | 4 => ⟨S1200000x1, .i32⟩
  | 5 => ⟨S1200000x1, .i1⟩
  | 6 => ⟨S1200000x1, .i1⟩
  | 7 => ⟨S_, .i1⟩
  | 8 => ⟨S1200000, .i1⟩
  | 9 => ⟨S1200000x64, .f32⟩
  | 10 => ⟨S1200000x64, .i1⟩
  | 11 => ⟨S_, .f32⟩
  | 12 => ⟨S1200000x64, .f32⟩
  | 13 => ⟨S1200000x64, .f32⟩
  | 14 => ⟨S_, .i32⟩
  | 15 => ⟨S_, .f32⟩
  | 16 => ⟨S1204224x64, .f32⟩
  | 17 => ⟨S_, .i32⟩
  | 18 => ⟨S_, .f32⟩
  | 19 => ⟨S1204224x64, .f32⟩
  | 20 => ⟨S1x16, .f32⟩
  | 21 => ⟨S1x1, .f32⟩
  | 22 => ⟨S1204224, .f32⟩
  | 23 => ⟨S1200000, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S64x16, .f32⟩
  | .local _ .vmem, ⟨5, _⟩ => ⟨S1x64, .f32⟩
  | .local _ .vmem, ⟨6, _⟩ => ⟨S64x16, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S8192x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S16x128, .f32⟩
  | .local _ .vmem, ⟨23, _⟩ => ⟨S1x16, .f32⟩
  | .local _ .vmem, ⟨24, _⟩ => ⟨S1x16, .f32⟩
  | .local _ .vmem, ⟨25, _⟩ => ⟨S1x1, .f32⟩
  | .local _ .vmem, ⟨26, _⟩ => ⟨S8192, .f32⟩
  | .local _ .vmem, ⟨27, _⟩ => ⟨S8192, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_0 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_2 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v18 : Ref sig .tc := ⟨.hbm, 78, rfl⟩
abbrev main_cst_3 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_cst_4 : Ref sig .tc := ⟨.hbm, 83, rfl⟩
abbrev main_v22 : Ref sig .tc := ⟨.hbm, 84, rfl⟩
abbrev main_cst_5 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_6 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v32 : Ref sig .tc := ⟨.hbm, 118, rfl⟩
abbrev main_call3_c : Ref sig .tc := ⟨.hbm, 119, rfl⟩
abbrev main_call3_v0 : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_c_1 : Ref sig .tc := ⟨.hbm, 127, rfl⟩
abbrev main_call3_c_2 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_call3_c_3 : Ref sig .tc := ⟨.hbm, 135, rfl⟩
abbrev main_call3_v12 : Ref sig .tc := ⟨.hbm, 136, rfl⟩
abbrev main_call3_v13 : Ref sig .tc := ⟨.hbm, 137, rfl⟩
abbrev main_call3_v14 : Ref sig .tc := ⟨.hbm, 138, rfl⟩
abbrev main_call3_cst : Ref sig .tc := ⟨.hbm, 139, rfl⟩
abbrev main_call3_v15 : Ref sig .tc := ⟨.hbm, 140, rfl⟩
abbrev main_v33 : Ref sig .tc := ⟨.hbm, 141, rfl⟩
abbrev main_c : Ref sig .tc := ⟨.hbm, 142, rfl⟩
abbrev main_call4_v0 : Ref sig .tc := ⟨.hbm, 143, rfl⟩
abbrev main_v34 : Ref sig .tc := ⟨.hbm, 144, rfl⟩
abbrev main_c_7 : Ref sig .tc := ⟨.hbm, 145, rfl⟩
abbrev main_call5_v0 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![147], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x16_0 : S1200000.BroadcastsInDim S1200000x16 (![0] : Fin 1 → Fin S1200000x16.rank)
  bcast_S_S1200000x16 : S_.BroadcastsInDim S1200000x16 (![] : Fin 0 → Fin S1200000x16.rank)
  bcast_S_S100000x16 : S_.BroadcastsInDim S100000x16 (![] : Fin 0 → Fin S100000x16.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  shapeCasts_S64_S1x64 : S64.ShapeCasts S1x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  pads_S1200000x64_S1204224x64_042240_000 : S1200000x64.Pads (![0, 0] : Fin 2 → Nat) ![4224, 0] ![0, 0] S1204224x64
  shapeCasts_S16_S1x16 : S16.ShapeCasts S1x16
  shapeCasts_S1_S1x1 : S1.ShapeCasts S1x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  concatenates_S8192x64_S8192x64_S8192x128_d1 : Shape.Concatenates [S8192x64, S8192x64] S8192x128 1
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  transposes_S1x16_p1_0_S16x1 : S1x16.Transposes [1, 0] S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S8192x1_S8192 : S8192x1.ShapeCasts S8192
  inb_S8192_S8192_0 : ∀ a, (![0] : Fin 1 → Nat) a + S8192.size a ≤ S8192.size a
  h_S8192 : 0 < S8192.numel
  slices_S1204224_S1200000_0 : S1204224.Slices ![0] S1200000
  gather_S100000x16_S1200000x1_S1200000x16_1_0_n_n_0_1_116_wf : GatherDims.WF S100000x16 S1200000x1 S1200000x16 [1] [0] [] [0] [] 1 ![1, 16]
  scatter_S100000x16_S1200000x1_S1200000x16_1_0_0_1_wf : ScatterDims.WF S100000x16 S1200000x1 S1200000x16 [1] [0] [0] 1
  scatter_S100000x1_S1200000x1_S1200000x1_1_0_0_1_wf : ScatterDims.WF S100000x1 S1200000x1 S1200000x1 [1] [0] [0] 1
  dot_S10000x16_S16x64_S10000x64_1_0_0_1_n_n_wf : DotDims.WF S10000x16 S16x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  dot_S8192x128_S128x16_S8192x16_1_0_0_1_n_n_wf : DotDims.WF S8192x128 S128x16 S8192x16 [1] [0] [0] [1] [] []
  dot_S8192x16_S16x1_S8192x1_1_0_0_1_n_n_wf : DotDims.WF S8192x16 S16x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S100000x16.size a
  hwx0_1 : ∀ i : grid0.Coords, EltTy.bits .f32 = 32 ∨ (Rect.block (s := S100000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S1204224x64.size a
  hwx2_0 : ∀ i : grid2.Coords, EltTy.bits .f32 = 32 ∨ (Rect.block (s := S1204224x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1204224x64.size a
  hwx2_1 : ∀ i : grid2.Coords, EltTy.bits .f32 = 32 ∨ (Rect.block (s := S1204224x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .f32 = 32 ∨ (Rect.block (s := S16x128) S16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8192.size a ≤ S1204224.size a
  hwx2_6 : ∀ i : grid2.Coords, EltTy.bits .f32 = 32 ∨ (Rect.block (s := S1204224) S8192.size (cc2_transform_6 i) (hinb2_6 i)).WholeWords (EltTy.packing .f32)

variable [Facts₀]

def gather_S100000x16_S1200000x1_S1200000x16_1_0_n_n_0_1_116 : GatherDims S100000x16 S1200000x1 S1200000x16 where
  offsetDims := [1]
  collapsedSliceDims := [0]
  operandBatchingDims := []
  startIndicesBatchingDims := []
  startIndexMap := [0]
  indexVectorDim := 1
  sliceSizes := ![1, 16]
  wf := gather_S100000x16_S1200000x1_S1200000x16_1_0_n_n_0_1_116_wf
def scatter_S100000x16_S1200000x1_S1200000x16_1_0_0_1 : ScatterDims S100000x16 S1200000x1 S1200000x16 where
  updateWindowDims := [1]
  insertedWindowDims := [0]
  scatterDimsToOperandDims := [0]
  indexVectorDim := 1
  wf := scatter_S100000x16_S1200000x1_S1200000x16_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf

abbrev win0_0 : Pipeline.Window sig grid0 :=
  Pipeline.Window.ofSpec (Memref.whole main_v15) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S8192.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x1200000 : Shape := ⟨2, ![2, 1200000]⟩
abbrev S64x16 : Shape := ⟨2, ![64, 16]⟩
abbrev S64 : Shape := ⟨1, ![64]⟩
abbrev S64x64 : Shape := ⟨2, ![64, 64]⟩
abbrev S16x128 : Shape := ⟨2, ![16, 128]⟩
abbrev S16 : Shape := ⟨1, ![16]⟩
abbrev S1x16 : Shape := ⟨2, ![1, 16]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x16 : Shape := ⟨2, ![1200000, 16]⟩
abbrev S100000x1 : Shape := ⟨2, ![100000, 1]⟩
abbrev S16x64 : Shape := ⟨2, ![16, 64]⟩
abbrev S100000x64 : Shape := ⟨2, ![100000, 64]⟩
abbrev S1x64 : Shape := ⟨2, ![1, 64]⟩
abbrev S1200000x64 : Shape := ⟨2, ![1200000, 64]⟩
abbrev S1200000x128 : Shape := ⟨2, ![1200000, 128]⟩
abbrev S128x16 : Shape := ⟨2, ![128, 16]⟩
abbrev S16x1 : Shape := ⟨2, ![16, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x1200000, .i32⟩
  | .hbm, ⟨2, _⟩ => ⟨S64x16, .f32⟩
  | .hbm, ⟨3, _⟩ => ⟨S64, .f32⟩
  | .hbm, ⟨4, _⟩ => ⟨S64x16, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S16x128, .f32⟩
  | .hbm, ⟨9, _⟩ => ⟨S16, .f32⟩
  | .hbm, ⟨10, _⟩ => ⟨S1x16, .f32⟩
  | .hbm, ⟨11, _⟩ => ⟨S1, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000x16, .f32⟩
  | .hbm, ⟨25, _⟩ => ⟨S_, .f32⟩
  | .hbm, ⟨26, _⟩ => ⟨S100000x16, .f32⟩
  | .hbm, ⟨27, _⟩ => ⟨S1200000x1, .i32⟩
  | .hbm, ⟨28, _⟩ => ⟨S100000x16, .f32⟩
  | .hbm, ⟨29, _⟩ => ⟨S_, .f32⟩
  | .hbm, ⟨30, _⟩ => ⟨S1200000x1, .f32⟩
  | .hbm, ⟨31, _⟩ => ⟨S_, .f32⟩
  | .hbm, ⟨32, _⟩ => ⟨S100000x1, .f32⟩
  | .hbm, ⟨33, _⟩ => ⟨S1200000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x16, .f32⟩
  | .hbm, ⟨39, _⟩ => ⟨S100000x16, .f32⟩
  | .hbm, ⟨40, _⟩ => ⟨S16x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S16x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000x64, .f32⟩
  | .hbm, ⟨60, _⟩ => ⟨S_, .f32⟩
  | .hbm, ⟨61, _⟩ => ⟨S100000x64, .f32⟩
  | .hbm, ⟨62, _⟩ => ⟨S1200000x1, .i32⟩
  | .hbm, ⟨63, _⟩ => ⟨S100000x64, .f32⟩
  | .hbm, ⟨64, _⟩ => ⟨S_, .f32⟩
  | .hbm, ⟨65, _⟩ => ⟨S1200000x1, .f32⟩
  | .hbm, ⟨66, _⟩ => ⟨S_, .f32⟩
  | .hbm, ⟨67, _⟩ => ⟨S100000x1, .f32⟩
  | .hbm, ⟨68, _⟩ => ⟨S1200000x1, .i32⟩
  | .hbm, ⟨69, _⟩ => ⟨S100000x1, .f32⟩
  | .hbm, ⟨70, _⟩ => ⟨S_, .f32⟩
  | .hbm, ⟨71, _⟩ => ⟨S100000x1, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .i32⟩
  | .hbm, ⟨84, _⟩ => ⟨S1200000, .i32⟩
  | .hbm, ⟨85, _⟩ => ⟨S1200000, .i1⟩
  | .hbm, ⟨86, _⟩ => ⟨S_, .i32⟩
  | .hbm, ⟨87, _⟩ => ⟨S1200000, .i32⟩
  | .hbm, ⟨88, _⟩ => ⟨S1200000, .i32⟩
  | .hbm, ⟨89, _⟩ => ⟨S1200000, .i32⟩
  | .hbm, ⟨90, _⟩ => ⟨S1200000x1, .i32⟩
  | .hbm, ⟨91, _⟩ => ⟨S1200000x64, .f32⟩
  | .hbm, ⟨92, _⟩ => ⟨S_, .i32⟩
  | .hbm, ⟨93, _⟩ => ⟨S1200000, .i32⟩
  | .hbm, ⟨94, _⟩ => ⟨S1200000, .i1⟩
  | .hbm, ⟨95, _⟩ => ⟨S_, .i32⟩
  | .hbm, ⟨96, _⟩ => ⟨S1200000, .i32⟩
  | .hbm, ⟨97, _⟩ => ⟨S1200000, .i32⟩
  | .hbm, ⟨98, _⟩ => ⟨S1200000, .i32⟩
  | .hbm, ⟨99, _⟩ => ⟨S1200000x1, .i32⟩
  | .hbm, ⟨100, _⟩ => ⟨S1200000x64, .f32⟩
  | .hbm, ⟨101, _⟩ => ⟨S1200000x128, .f32⟩
  | .hbm, ⟨102, _⟩ => ⟨S128x16, .f32⟩
  | .hbm, ⟨103, _⟩ => ⟨S1200000x16, .f32⟩
  | .hbm, ⟨104, _⟩ => ⟨S1x16, .f32⟩
  | .hbm, ⟨105, _⟩ => ⟨S1200000x16, .f32⟩
  | .hbm, ⟨106, _⟩ => ⟨S1200000x16, .f32⟩
  | .hbm, ⟨107, _⟩ => ⟨S_, .f32⟩
  | .hbm, ⟨108, _⟩ => ⟨S1200000x16, .f32⟩
  | .hbm, ⟨109, _⟩ => ⟨S1200000x16, .f32⟩
  | .hbm, ⟨110, _⟩ => ⟨S16x1, .f32⟩
  | .hbm, ⟨111, _⟩ => ⟨S1200000x1, .f32⟩
  | .hbm, ⟨112, _⟩ => ⟨S1x1, .f32⟩
  | .hbm, ⟨113, _⟩ => ⟨S1200000x1, .f32⟩
  | .hbm, ⟨114, _⟩ => ⟨S1200000x1, .f32⟩
  | .hbm, ⟨115, _⟩ => ⟨S1200000, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_12 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call1_cst : Ref sig .tc := ⟨.hbm, 107, rfl⟩
abbrev main_call1_v0 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x16 : S_.BroadcastsInDim S100000x16 (![] : Fin 0 → Fin S100000x16.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  transposes_S64x16_S16x64_1_0 : S64x16.Transposes [1, 0] S16x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  concatenates_S1200000x64_S1200000x64_S1200000x128_d1 : Shape.Concatenates [S1200000x64, S1200000x64] S1200000x128 1
  transposes_S16x128_S128x16_1_0 : S16x128.Transposes [1, 0] S128x16
  bcast_S16_S1x16_1 : S16.BroadcastsInDim S1x16 (![1] : Fin 1 → Fin S1x16.rank)
  bcast_S1x16_S1200000x16_0_1 : S1x16.BroadcastsInDim S1200000x16 (![0, 1] : Fin 2 → Fin S1200000x16.rank)
  bcast_S_S1200000x16 : S_.BroadcastsInDim S1200000x16 (![] : Fin 0 → Fin S1200000x16.rank)
  transposes_S1x16_S16x1_1_0 : S1x16.Transposes [1, 0] S16x1
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  shapeCasts_S1200000x1_S1200000 : S1200000x1.ShapeCasts S1200000
  gather_S100000x16_S1200000x1_S1200000x16_1_0_n_n_0_1_116_wf : GatherDims.WF S100000x16 S1200000x1 S1200000x16 [1] [0] [] [0] [] 1 ![1, 16]
  scatter_S100000x16_S1200000x1_S1200000x16_1_0_0_1_wf : ScatterDims.WF S100000x16 S1200000x1 S1200000x16 [1] [0] [0] 1
  scatter_S100000x1_S1200000x1_S1200000x1_1_0_0_1_wf : ScatterDims.WF S100000x1 S1200000x1 S1200000x1 [1] [0] [0] 1
  dot_S100000x16_S16x64_S100000x64_1_0_0_1_n_n_wf : DotDims.WF S100000x16 S16x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S1200000x128_S128x16_S1200000x16_1_0_0_1_n_n_wf : DotDims.WF S1200000x128 S128x16 S1200000x16 [1] [0] [0] [1] [] []
  dot_S1200000x16_S16x1_S1200000x1_1_0_0_1_n_n_wf : DotDims.WF S1200000x16 S16x1 S1200000x1 [1] [0] [0] [1] [] []

variable [Facts₀]

def gather_S100000x16_S1200000x1_S1200000x16_1_0_n_n_0_1_116 : GatherDims S100000x16 S1200000x1 S1200000x16 where
  offsetDims := [1]
  collapsedSliceDims := [0]
  operandBatchingDims := []
  startIndicesBatchingDims := []
  startIndexMap := [0]
  indexVectorDim := 1
  sliceSizes := ![1, 16]
  wf := gather_S100000x16_S1200000x1_S1200000x16_1_0_n_n_0_1_116_wf
def scatter_S100000x16_S1200000x1_S1200000x16_1_0_0_1 : ScatterDims S100000x16 S1200000x1 S1200000x16 where
  updateWindowDims := [1]
  insertedWindowDims := [0]
  scatterDimsToOperandDims := [0]
  indexVectorDim := 1
  wf := scatter_S100000x16_S1200000x1_S1200000x16_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1200000x128_S128x16_S1200000x16_1_0_0_1_n_n : DotDims S1200000x128 S128x16 S1200000x16 where
  lhsContracting := [1]
  rhsContracting := [0]
  lhsNonContracting := [0]
  rhsNonContracting := [1]
  lhsBatch := []
  rhsBatch := []
  wf := dot_S1200000x128_S128x16_S1200000x16_1_0_0_1_n_n_wf
def dot_S1200000x16_S16x1_S1200000x1_1_0_0_1_n_n : DotDims S1200000x16 S16x1 S1200000x1 where
  lhsContracting := [1]
  rhsContracting := [0]
  lhsNonContracting := [0]
  rhsNonContracting := [1]
  lhsBatch := []
  rhsBatch := []
  wf := dot_S1200000x16_S16x1_S1200000x1_1_0_0_1_n_n_wf

class Facts : Prop extends Facts₀ where

variable [Facts]
-- ==== Proof.PreRange.lean ====
/-
  The precondition's index-range conjunct, read back.

  The printed precondition is a conjunction of twelve bits: eleven "every entry is finite" tests of the float
  arguments and, last, the test that every entry `w` of `edge_index` satisfies `0 ≤ w` and `w < 100000` as signed
  32-bit words, reduced by `and` over both axes. If the whole conjunction is 1 then so is its last conjunct, so
  the reduction by `and` is 1, so both comparisons are 1 at every index. A 32-bit word that is nonnegative as a
  signed integer reads the same signed and unsigned, and its signed value is below 100000: hence every entry of
  `edge_index`, read as a natural number, is a node id below 100000.
-/
import proofs.«424958_j48172353192035_2_alg».proof.Pre_finite_inputs
import Idealize.ShloMosaic.PureOps.Ideal
import Idealize.ShloMosaic.Lib.StableHlo.Predicate
import Idealize.ShloMosaic.Lib.ReduceAll
import Idealize.ShloMosaic.Lib.ValueIdx
import Idealize.ShloMosaic.Lib.Affine

namespace Cert.PreRange

open Cert.Pre_finite_inputs Idealize.ShloMosaic

/-- A 32-bit word that tests `≥ 0` and `< 100000` as a signed integer is, as a natural number, below 100000:
    nonnegative signed means the top bit is clear, and then the signed and the unsigned readings agree. -/
private theorem word_lt (w : BitVec 32) (h0 : IntOp.cmpi .sge w 0#32 = 1#1) (h1 : IntOp.cmpi .slt w 100000#32 = 1#1) :
    w.toNat < 100000 := by
  rw [IntOp.cmpi_sge, show (0#32 : BitVec 32).toInt = 0 from by decide] at h0
  rw [IntOp.cmpi_slt, show (100000#32 : BitVec 32).toInt = 100000 from by decide] at h1
  have hlt : 2 * w.toNat < 2 ^ 32 := BitVec.toInt_pos_iff.1 h0
  rw [BitVec.toInt_eq_toNat_of_lt hlt] at h1
  omega

/-- The result of the precondition has the empty shape: one index. -/
private instance : Subsingleton S_.Idx := ⟨fun a b => funext fun d => d.elim0⟩

/-- If the printed precondition holds then every entry of `edge_index` is a node id: as a natural number it is
    below 100000. Only the last conjunct of the conjunction is used. -/
theorem edge_inRange [Cert.Pre_finite_inputs.Facts] (a0 : FVec Ideal S100000x16 .f32) (a1 : IVec S2x1200000 32) (a2 : FVec Ideal S64x16 .f32) (a3 : FVec Ideal S64 .f32) (a4 : FVec Ideal S64x16 .f32) (a5 : FVec Ideal S64x64 .f32) (a6 : FVec Ideal S64 .f32) (a7 : FVec Ideal S64x64 .f32) (a8 : FVec Ideal S16x128 .f32) (a9 : FVec Ideal S16 .f32) (a10 : FVec Ideal S1x16 .f32) (a11 : FVec Ideal S1 .f32)
    (h : fn (F := Ideal) a0 a1 a2 a3 a4 a5 a6 a7 a8 a9 a10 a11 = fun _ => 1#1) :
    ∀ i : S2x1200000.Idx, (a1 i).toNat < 100000 := by
  intro i
  -- the one bit of the result
  have e := congrFun h ValueIdx.ix0
  dsimp only [fn] at e
  dsimp only [fn_part1] at e
  dsimp only [fn_part2] at e
  dsimp only [fn_part3] at e
  -- the outermost `and` at the scalar: keep its second operand, the reduction over `edge_index`
  have e59 := (IntOp.andi_eq_one.1 e).2
  -- a reduction by `and` over all axes that is 1 had a 1 at every index
  have ei := Host.reduce_andi_all _ _ _ _ _ e59 i
  -- at the index: the `and` of the two signed comparisons of the word with the broadcast constants
  obtain ⟨hge, hlt⟩ := IntOp.andi_eq_one.1 ei
  exact word_lt (a1 i) hge hlt

end Cert.PreRange
-- ==== Proof.RefIds.lean ====
/-
  The two vectors of node ids the reference reads out of the [2, n] edge array — row 0 (the sources) and row 1 (the
  destinations), each sliced off and reshaped to a vector — are entries of that array, so a bound that holds for every
  entry of the edge array holds for every source id and every destination id.
-/
import proofs.«424958_j48172353192035_2_alg».proof.Proof.Gen.ReferenceIdeal.Read

noncomputable section

namespace Cert.ReferenceIdeal.Ids

open Cert.ReferenceIdeal Cert.ReferenceIdeal.Read Idealize.ShloMosaic

variable {F : FTy → Type} [FloatOps F]

/-- Every source id is an entry of row 0 of the edge array, hence below the bound on the array's entries. -/
theorem src_lt (x1 : (⟨S2x1200000, .i32⟩ : BufTy).Contents (Elt F)) (h : ∀ i : S2x1200000.Idx, (x1 i).toNat < 100000) :
    ∀ e : S1200000.Idx, (val_main_v1 (F := F) x1 e).toNat < 100000 := by
  intro e
  rw [val_main_v1_apply, val_main_v0_apply]
  exact h _

/-- Every destination id is an entry of row 1 of the edge array, hence below the bound on the array's entries. -/
theorem dst_lt (x1 : (⟨S2x1200000, .i32⟩ : BufTy).Contents (Elt F)) (h : ∀ i : S2x1200000.Idx, (x1 i).toNat < 100000) :
    ∀ e : S1200000.Idx, (val_main_v3 (F := F) x1 e).toNat < 100000 := by
  intro e
  rw [val_main_v3_apply, val_main_v2_apply]
  exact h _

end Cert.ReferenceIdeal.Ids

end
-- ==== Proof.Spec.lean ====
/-
  The mathematics both programs compute, row by row, on the extended reals.

  A GraphSAGE layer sends node i's aggregated neighbour features a (the mean over incoming edges) and its own
  features h to   a · Wlᵀ + b + h · Wrᵀ :  output feature q is  (∑ₖ a k · Wl q k) + b q + ∑ₖ h k · Wr q k.
  The first layer is followed by max(·, 0), the second is not. The edge scorer reads the second layer's rows at an
  edge's two endpoints, lays them side by side (128 features), applies a 16-unit hidden layer with max(·, 0) and a
  single linear output:  (∑ⱼ max((∑ₖ cat k · W₁ j k) + b₁ j, 0) · W₂ 0 j) + b₂.
  Only sums, products and max occur, in the same order on both sides, so no law of the extended reals beyond
  re-indexing a finite sum is needed, and finiteness of the inputs is never used.
-/
import Idealize.ShloMosaic.PureOps.Ideal
import Idealize.ShloMosaic.Lib.ValueIdx

noncomputable section

namespace Cert.Sage

open Idealize.ShloMosaic Idealize.ShloMosaic.ValueIdx

/-- Output feature `q` of one SAGE layer at one node: `(∑ₖ a k · Wl q k) + b q + ∑ₖ h k · Wr q k`. -/
def sageRow {d : Nat} (a h : Fin d → EReal) (Wl Wr : FVec Ideal (⟨2, ![64, d]⟩ : Shape) .f32) (b : Fin 64 → EReal) (q : Fin 64) : EReal :=
  ((∑ k : Fin d, a k * Wl (ix2 q k)) + b q) + ∑ k : Fin d, h k * Wr (ix2 q k)

/-- The first layer over all `n` nodes, with its rectifier: row `i` from row `i` of the aggregate and of the features. -/
def layer1 {n : Nat} (agg h : FVec Ideal (⟨2, ![n, 16]⟩ : Shape) .f32) (Wl Wr : FVec Ideal (⟨2, ![64, 16]⟩ : Shape) .f32) (b : Fin 64 → EReal) :
    FVec Ideal (⟨2, ![n, 64]⟩ : Shape) .f32 :=
  fun i => max (sageRow (fun k => agg (ix2 (i 0) k)) (fun k => h (ix2 (i 0) k)) Wl Wr b (i 1)) 0

/-- The second layer over all `n` nodes (no rectifier). -/
def layer2 {n : Nat} (agg h : FVec Ideal (⟨2, ![n, 64]⟩ : Shape) .f32) (Wl Wr : FVec Ideal (⟨2, ![64, 64]⟩ : Shape) .f32) (b : Fin 64 → EReal) :
    FVec Ideal (⟨2, ![n, 64]⟩ : Shape) .f32 :=
  fun i => sageRow (fun k => agg (ix2 (i 0) k)) (fun k => h (ix2 (i 0) k)) Wl Wr b (i 1)

/-- Two 64-feature rows side by side: feature `k < 64` from the first, feature `k ≥ 64` from the second. -/
def cat (hs hd : Fin 64 → EReal) (k : Fin 128) : EReal :=
  if hk : k.val < 64 then hs ⟨k.val, hk⟩ else hd ⟨k.val - 64, by have := k.isLt; omega⟩

/-- One edge's score from its endpoints' rows. -/
def edgeRow (hs hd : Fin 64 → EReal) (W1 : FVec Ideal (⟨2, ![16, 128]⟩ : Shape) .f32) (b1 : Fin 16 → EReal)
    (W2 : FVec Ideal (⟨2, ![1, 16]⟩ : Shape) .f32) (b2 : EReal) : EReal :=
  (∑ j : Fin 16, max ((∑ k : Fin 128, cat hs hd k * W1 (ix2 j k)) + b1 j) 0 * W2 (ix2 (0 : Fin 1) j)) + b2

/-- The scores of `n` edges from the two `[n, 64]` arrays of endpoint rows. -/
def edgeScores {n : Nat} (hs hd : FVec Ideal (⟨2, ![n, 64]⟩ : Shape) .f32) (W1 : FVec Ideal (⟨2, ![16, 128]⟩ : Shape) .f32) (b1 : Fin 16 → EReal)
    (W2 : FVec Ideal (⟨2, ![1, 16]⟩ : Shape) .f32) (b2 : EReal) : FVec Ideal (⟨1, ![n]⟩ : Shape) .f32 :=
  fun e => edgeRow (fun k => hs (ix2 (e 0) k)) (fun k => hd (ix2 (e 0) k)) W1 b1 W2 b2

end Cert.Sage

end
-- ==== Proof.RefStages.lean ====
/-
  The reference program's three dense stages, each read index by index on the extended reals and identified with the
  row-level specification.

  A dense layer of the reference is  agg · Wlᵀ + b + h · Wrᵀ : a transposed weight read at (k, q) is the weight at
  (q, k), the bias broadcast down the rows is the bias at the output feature, and the contraction is a plain finite sum, so
  entry (p, q) is  (∑ₖ agg p k · Wl q k) + b q + ∑ₖ h p k · Wr q k  with the summands in the specification's own order.
  The rectifier's other operand is the broadcast zero word, whose value is 0.
  The edge scorer first lays the two gathered rows side by side: entry (e, k) of the joined array is entry (e, k) of the
  first array for k < 64 and entry (e, k − 64) of the second otherwise.  The hidden layer and the single output unit are
  then the same two re-indexings, and the final reshape of an [n, 1] array to [n] reads entry (e, 0).
  The gathered and aggregated arrays are never opened: they occur as the same opaque stages on both sides.
-/
import proofs.«424958_j48172353192035_2_alg».proof.Proof.Gen.ReferenceIdeal.Read
import proofs.«424958_j48172353192035_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Read Idealize.ShloMosaic Idealize.ShloMosaic.ValueIdx

/-! ## The first layer -/

/-- The left operand of the first layer's first contraction at output entry (p, q), summand k: row p, feature k. -/
private theorem lidx23 (p : Fin 100000) (q : Fin 64) (k : Fin 16) : lidx_main_v23 (ix2 p q) k = ix2 p k :=
  funext fun a => Fin.ext (by match a with | ⟨0, _⟩ => rfl | ⟨1, _⟩ => rfl)
/-- The transposed weight at (k, q) is the weight at (q, k). -/
private theorem ridx23 (p : Fin 100000) (q : Fin 64) (k : Fin 16) : idx_main_v22 (ridx_main_v23 (ix2 p q) k) = ix2 q k :=
  funext fun a => Fin.ext (by match a with | ⟨0, _⟩ => rfl | ⟨1, _⟩ => rfl)
/-- The bias broadcast to [1, 64] and then down the rows, at entry (p, q), is the bias at q. -/
private theorem bidx25 (p : Fin 100000) (q : Fin 64) : idx_main_v24 (idx_main_v25 (ix2 p q)) = ix1 q :=
  funext fun a => Fin.ext (by match a with | ⟨0, _⟩ => rfl)
private theorem lidx28 (p : Fin 100000) (q : Fin 64) (k : Fin 16) : lidx_main_v28 (ix2 p q) k = ix2 p k :=
  funext fun a => Fin.ext (by match a with | ⟨0, _⟩ => rfl | ⟨1, _⟩ => rfl)
private theorem ridx28 (p : Fin 100000) (q : Fin 64) (k : Fin 16) : idx_main_v27 (ridx_main_v28 (ix2 p q) k) = ix2 q k :=
  funext fun a => Fin.ext (by match a with | ⟨0, _⟩ => rfl | ⟨1, _⟩ => rfl)

/-- The reference's first layer with its rectifier is the specification's, over the aggregated features as an opaque stage. -/
theorem layer1_eq (x0 : (⟨S100000x16, .f32⟩ : BufTy).Contents (Elt Ideal)) (x1 : (⟨S2x1200000, .i32⟩ : BufTy).Contents (Elt Ideal)) (x2 : (⟨S64x16, .f32⟩ : BufTy).Contents (Elt Ideal)) (x3 : (⟨S64, .f32⟩ : BufTy).Contents (Elt Ideal)) (x4 : (⟨S64x16, .f32⟩ : BufTy).Contents (Elt Ideal)) :
    val_main_v30 (F := Ideal) x0 x1 x2 x3 x4 = Cert.Sage.layer1 (val_main_v21 (F := Ideal) x0 x1) x0 x2 x4 (fun q => x3 (ix1 q)) := by
  funext i
  obtain ⟨p, q, rfl⟩ : ∃ (p : Fin 100000) (q : Fin 64), i = ix2 p q := ⟨i 0, i 1, eq_ix2 i⟩
  rw [val_main_v30_apply, val_main_v29_apply, val_main_v26_apply, val_main_v23_apply, val_main_v25_apply, val_main_v24_apply,
    val_main_v28_apply, val_main_call0_v0_apply, val_main_call0_cst_apply]
  generalize val_main_v21 (F := Ideal) x0 x1 = A
  simp only [val_main_v22_apply, val_main_v27_apply, lidx23, ridx23, bidx25, lidx28, ridx28, Ideal.maximumf_def, Ideal.addf_def,
    Ideal.ofBits_def, Ideal.ofBits_zero_f32]
  rfl

/-! ## The second layer -/

private theorem lidx50 (p : Fin 100000) (q : Fin 64) (k : Fin 64) : lidx_main_v50 (ix2 p q) k = ix2 p k :=
  funext fun a => Fin.ext (by match a with | ⟨0, _⟩ => rfl | ⟨1, _⟩ => rfl)
private theorem ridx50 (p : Fin 100000) (q : Fin 64) (k : Fin 64) : idx_main_v49 (ridx_main_v50 (ix2 p q) k) = ix2 q k :=
  funext fun a => Fin.ext (by match a with | ⟨0, _⟩ => rfl | ⟨1, _⟩ => rfl)
private theorem bidx52 (p : Fin 100000) (q : Fin 64) : idx_main_v51 (idx_main_v52 (ix2 p q)) = ix1 q :=
  funext fun a => Fin.ext (by match a with | ⟨0, _⟩ => rfl)
private theorem lidx55 (p : Fin 100000) (q : Fin 64) (k : Fin 64) : lidx_main_v55 (ix2 p q) k = ix2 p k :=
  funext fun a => Fin.ext (by match a with | ⟨0, _⟩ => rfl | ⟨1, _⟩ => rfl)
private theorem ridx55 (p : Fin 100000) (q : Fin 64) (k : Fin 64) : idx_main_v54 (ridx_main_v55 (ix2 p q) k) = ix2 q k :=
  funext fun a => Fin.ext (by match a with | ⟨0, _⟩ => rfl | ⟨1, _⟩ => rfl)

/-- The reference's second layer is the specification's, over its aggregate and the first layer's output as opaque stages. -/
theorem layer2_eq (x0 : (⟨S100000x16, .f32⟩ : BufTy).Contents (Elt Ideal)) (x1 : (⟨S2x1200000, .i32⟩ : BufTy).Contents (Elt Ideal)) (x2 : (⟨S64x16, .f32⟩ : BufTy).Contents (Elt Ideal)) (x3 : (⟨S64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v56 (F := Ideal) x0 x1 x2 x3 x4 x5 x6 x7
      = Cert.Sage.layer2 (val_main_v48 (F := Ideal) x0 x1 x2 x3 x4) (val_main_v30 (F := Ideal) x0 x1 x2 x3 x4) x5 x7 (fun q => x6 (ix1 q)) := by
  funext i
  obtain ⟨p, q, rfl⟩ : ∃ (p : Fin 100000) (q : Fin 64), i = ix2 p q := ⟨i 0, i 1, eq_ix2 i⟩
  rw [val_main_v56_apply, val_main_v53_apply, val_main_v50_apply, val_main_v52_apply, val_main_v51_apply, val_main_v55_apply]
  generalize val_main_v48 (F := Ideal) x0 x1 x2 x3 x4 = A
  generalize val_main_v30 (F := Ideal) x0 x1 x2 x3 x4 = H
  simp only [val_main_v49_apply, val_main_v54_apply, lidx50, ridx50, bidx52, lidx55, ridx55, Ideal.addf_def]
  rfl

/-! ## The edge scorer -/

/-- Two arrays of 64-feature rows joined along the feature axis, at entry (e, k): the first array's entry (e, k) for
    k < 64, the second's entry (e, k − 64) otherwise. -/
private theorem concat_rows_apply {α : Type} {n : Nat} (X Y : (⟨2, ![n, 64]⟩ : Shape).Idx → α)
    (h : Shape.Concatenates [(⟨2, ![n, 64]⟩ : Shape), ⟨2, ![n, 64]⟩] ⟨2, ![n, 128]⟩ 1) (e : Fin n) (k : Fin 128) :
    concatenate ⟨2, ![n, 128]⟩ 1 [⟨⟨2, ![n, 64]⟩, X⟩, ⟨⟨2, ![n, 64]⟩, Y⟩] h (ix2 e k)
      = if hk : k.val < 64 then X (ix2 e ⟨k.val, hk⟩) else Y (ix2 e ⟨k.val - 64, by have := k.isLt; omega⟩) := by
  by_cases hk : k.val < 64
  · rw [dif_pos hk]
    exact concatenate_pair_apply_left (1 : Fin 2) X Y h (ix2 e k) rfl (ix2 e ⟨k.val, hk⟩) (fun b => by
      match b with
      | ⟨0, _⟩ => rfl
      | ⟨1, _⟩ => rfl)
  · rw [dif_neg hk]
    exact concatenate_pair_apply_right (1 : Fin 2) X Y h (ix2 e k) rfl rfl (ix2 e ⟨k.val - 64, by have := k.isLt; omega⟩) (fun b hb => by
      match b with
      | ⟨0, _⟩ => rfl
      | ⟨1, _⟩ => exact absurd rfl hb) (by show k.val - 64 + 64 = k.val; omega)

/-- The joined endpoint rows at (e, k) are the specification's side-by-side row of the two gathered rows of edge e. -/
private theorem cat71 (x0 : (⟨S100000x16, .f32⟩ : BufTy).Contents (Elt Ideal)) (x1 : (⟨S2x1200000, .i32⟩ : BufTy).Contents (Elt Ideal)) (x2 : (⟨S64x16, .f32⟩ : BufTy).Contents (Elt Ideal)) (x3 : (⟨S64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (e : Fin 1200000) (k : Fin 128) :
    val_main_v71 (F := Ideal) x0 x1 x2 x3 x4 x5 x6 x7 (ix2 e k)
      = Cert.Sage.cat (fun k' => val_main_v63 (F := Ideal) x0 x1 x2 x3 x4 x5 x6 x7 (ix2 e k'))
          (fun k' => val_main_v70 (F := Ideal) x0 x1 x2 x3 x4 x5 x6 x7 (ix2 e k')) k := by
  unfold val_main_v71
  generalize val_main_v63 (F := Ideal) x0 x1 x2 x3 x4 x5 x6 x7 = X
  generalize val_main_v70 (F := Ideal) x0 x1 x2 x3 x4 x5 x6 x7 = Y
  exact concat_rows_apply X Y _ e k

private theorem lidx73 (e : Fin 1200000) (j : Fin 16) (k : Fin 128) : lidx_main_v73 (ix2 e j) k = ix2 e k :=
  funext fun a => Fin.ext (by match a with | ⟨0, _⟩ => rfl | ⟨1, _⟩ => rfl)
private theorem ridx73 (e : Fin 1200000) (j : Fin 16) (k : Fin 128) : idx_main_v72 (ridx_main_v73 (ix2 e j) k) = ix2 j k :=
  funext fun a => Fin.ext (by match a with | ⟨0, _⟩ => rfl | ⟨1, _⟩ => rfl)
private theorem bidx75 (e : Fin 1200000) (j : Fin 16) : idx_main_v74 (idx_main_v75 (ix2 e j)) = ix1 j :=
  funext fun a => Fin.ext (by match a with | ⟨0, _⟩ => rfl)

/-- Hidden unit j of edge e: the rectified affine image of the joined row. -/
private theorem hidden_apply (x0 : (⟨S100000x16, .f32⟩ : BufTy).Contents (Elt Ideal)) (x1 : (⟨S2x1200000, .i32⟩ : BufTy).Contents (Elt Ideal)) (x2 : (⟨S64x16, .f32⟩ : BufTy).Contents (Elt Ideal)) (x3 : (⟨S64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S16x128, .f32⟩ : BufTy).Contents (Elt Ideal)) (x9 : (⟨S16, .f32⟩ : BufTy).Contents (Elt Ideal)) (e : Fin 1200000) (j : Fin 16) :
    val_main_v77 (F := Ideal) x0 x1 x2 x3 x4 x5 x6 x7 x8 x9 (ix2 e j)
      = max ((∑ k : Fin 128, Cert.Sage.cat (fun k' => val_main_v63 (F := Ideal) x0 x1 x2 x3 x4 x5 x6 x7 (ix2 e k'))
          (fun k' => val_main_v70 (F := Ideal) x0 x1 x2 x3 x4 x5 x6 x7 (ix2 e k')) k * x8 (ix2 j k)) + x9 (ix1 j)) 0 := by
  rw [val_main_v77_apply, val_main_v76_apply, val_main_v73_apply, val_main_v75_apply, val_main_v74_apply, val_main_call1_v0_apply,
    val_main_call1_cst_apply]
  simp only [val_main_v72_apply, lidx73, ridx73, bidx75, cat71, Ideal.maximumf_def, Ideal.addf_def, Ideal.ofBits_def,
    Ideal.ofBits_zero_f32]

/-- The reshape of the [n, 1] scores to [n] reads entry (e, 0); summand j of the output contraction reads hidden unit j. -/
private theorem lidx79 (e : Fin 1200000) (j : Fin 16) : lidx_main_v79 (idx_main_v83 (ix1 e)) j = ix2 e j :=
  funext fun a => Fin.ext (by
    match a with
    | ⟨0, _⟩ => exact Nat.div_one _
    | ⟨1, _⟩ => rfl)
private theorem ridx79 (e : Fin 1200000) (j : Fin 16) : idx_main_v78 (ridx_main_v79 (idx_main_v83 (ix1 e)) j) = ix2 (0 : Fin 1) j :=
  funext fun a => Fin.ext (by match a with | ⟨0, _⟩ => rfl | ⟨1, _⟩ => rfl)
private theorem bidx81 (e : Fin 1200000) : idx_main_v80 (idx_main_v81 (idx_main_v83 (ix1 e))) = ix1 (0 : Fin 1) :=
  funext fun a => Fin.ext (by match a with | ⟨0, _⟩ => rfl)

/-- The reference's edge scores are the specification's, over the two gathered arrays of endpoint rows as opaque stages. -/
theorem scores_eq (x0 : (⟨S100000x16, .f32⟩ : BufTy).Contents (Elt Ideal)) (x1 : (⟨S2x1200000, .i32⟩ : BufTy).Contents (Elt Ideal)) (x2 : (⟨S64x16, .f32⟩ : BufTy).Contents (Elt Ideal)) (x3 : (⟨S64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S16x128, .f32⟩ : BufTy).Contents (Elt Ideal)) (x9 : (⟨S16, .f32⟩ : BufTy).Contents (Elt Ideal)) (x10 : (⟨S1x16, .f32⟩ : BufTy).Contents (Elt Ideal)) (x11 : (⟨S1, .f32⟩ : BufTy).Contents (Elt Ideal)) :
    val_main_v83 (F := Ideal) x0 x1 x2 x3 x4 x5 x6 x7 x8 x9 x10 x11
      = Cert.Sage.edgeScores (val_main_v63 (F := Ideal) x0 x1 x2 x3 x4 x5 x6 x7) (val_main_v70 (F := Ideal) x0 x1 x2 x3 x4 x5 x6 x7) x8 (fun j => x9 (ix1 j)) x10 (x11 (ix1 (0 : Fin 1))) := by
  funext i
  obtain ⟨e, rfl⟩ : ∃ e : Fin 1200000, i = ix1 e := ⟨i 0, eq_ix1 i⟩
  rw [val_main_v83_apply, val_main_v82_apply, val_main_v79_apply, val_main_v81_apply, val_main_v80_apply]
  simp only [val_main_v78_apply, lidx79, ridx79, bidx81, hidden_apply, Ideal.addf_def]
  generalize val_main_v63 (F := Ideal) x0 x1 x2 x3 x4 x5 x6 x7 = X
  generalize val_main_v70 (F := Ideal) x0 x1 x2 x3 x4 x5 x6 x7 = Y
  rfl

end Cert.ReferenceIdeal.Stages

end
-- ==== Proof.Take.lean ====
/-
  The four row lookups `table[ids]` of the kernel program, read as plain row gathers.

  Each lookup is printed in fill mode: a negative id is first wrapped by the table's height (100000), the wrapped id is
  tested against the range [0, 99999], and a row whose id fails the test is replaced by a fill value. For ids that are
  nodes (below 100000 as unsigned words) none of this acts: such a word is non-negative as a signed one, so the wrap
  returns it unchanged; it passes both signed compares, which for words below 2³¹ are the unsigned ones; the
  conjunction of the two bits over the index column's single entry is 1 on every row; and a select whose mask is 1
  everywhere is its first branch. What remains is the gather of the table's rows at the (wrapped) ids, which is kept
  as it is printed. Only integer operations, a select and the gather occur, so the statements hold for every float
  family.
-/
import proofs.«424958_j48172353192035_2_alg».proof.Proof.Gen.KernelIdeal.Launch
import Idealize.ShloMosaic.Lib.StableHlo.Run
import Idealize.ShloMosaic.Lib.StableHlo.Predicate
import Idealize.ShloMosaic.Lib.ValueIdx
import Idealize.ShloMosaic.Lib.ReduceAll

noncomputable section

namespace Cert.KernelIdeal.Take

open Cert.KernelIdeal Cert.KernelIdeal.Gen Idealize.ShloMosaic Idealize.ShloMosaic.StableHlo
open Idealize.ShloMosaic.ValueIdx Idealize.ShloMosaic.StableHlo.Predicate

variable {F : FTy → Type} [FloatOps F]

/-- A left fold by `and` from the bit 1 over bits that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from rfl]
    exact foldl_andi_one f hf l

/-- A reduction by `and` from the bit 1 of an array whose every bit is 1 is 1 at every result index. -/
theorem reduce_andi_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  exact foldl_andi_one x hx _

/-- The start indices jnp computes from a vector of node ids: negative ids wrapped by the table's height, as a column. -/
def wrapIdx (I : IVec S1200000 32) : IVec S1200000x1 32 :=
  broadcastInDim S1200000x1 ![0] bcast_S1200000_S1200000x1_0
    (select (cmpi .slt I (broadcastInDim S1200000 ![] bcast_S_S1200000 (constantI S_ 32 0#32)))
            (addi I (broadcastInDim S1200000 ![] bcast_S_S1200000 (constantI S_ 32 100000#32))) I)

/-- Every id is a node: below 100000 as an unsigned word (hence non-negative as a signed one). -/
def InRange (I : IVec S1200000 32) : Prop := ∀ e : S1200000.Idx, (I e).toNat < 100000

/-- For ids in range the wrap changes nothing. -/
theorem wrap_eq (I : IVec S1200000 32) (hr : InRange I) :
    select (cmpi .slt I (broadcastInDim S1200000 ![] bcast_S_S1200000 (constantI S_ 32 0#32)))
            (addi I (broadcastInDim S1200000 ![] bcast_S_S1200000 (constantI S_ 32 100000#32))) I = I := by
  funext e
  rw [select_apply]
  have h0 : cmpi .slt I (broadcastInDim S1200000 ![] bcast_S_S1200000 (constantI S_ 32 0#32)) e = IntOp.cmpi .slt (I e) 0#32 := rfl
  have hne : ¬ IntOp.cmpi .slt (I e) 0#32 = 1#1 := by
    rw [slt_iff_toNat (by have := hr e; omega) (by decide)]
    exact Nat.not_lt_zero _
  rw [h0, eq_zero_of_ne_one hne, select_zero]

/-- For ids in range every wrapped start index is a node. -/
theorem wrapIdx_lt (I : IVec S1200000 32) (hr : InRange I) (i : S1200000x1.Idx) : (wrapIdx I i).toNat < 100000 := by
  unfold wrapIdx
  rw [wrap_eq I hr]
  exact hr _

/-- The in-bounds test of a fill-mode gather, per row of the index column: `0 ≤ idx` and `idx ≤ 99999` (signed), reduced
    by `and` over the column's one entry. -/
def rangeMask (idx : IVec S1200000x1 32) : IVec S1200000 1 :=
  Host.reduce IntOp.andi
    (andi (cmpi .sge idx (broadcastInDim S1200000x1 ![] bcast_S_S1200000x1 (constantI S_ 32 0#32)))
          (cmpi .sle idx (broadcastInDim S1200000x1 ![0, 1] bcast_S1x1_S1200000x1_0_1
            (broadcastInDim S1x1 ![1] bcast_S1_S1x1_1 (constantI S1 32 99999#32)))))
    (constantI S_ 1 1#1) reducesTo_S1200000x1_S1200000_d1 h_S_

/-- For ids in range the test passes on every row. -/
theorem rangeMask_wrapIdx (I : IVec S1200000 32) (hr : InRange I) (e : S1200000.Idx) : rangeMask (wrapIdx I) e = 1#1 := by
  unfold rangeMask
  refine reduce_andi_one _ _ _ _ rfl (fun i => ?_) e
  have hlt := wrapIdx_lt I hr i
  have h1 : IntOp.cmpi .sge (wrapIdx I i) 0#32 = 1#1 :=
    (sge_iff_toNat (by omega) (by decide)).2 (by have : (0#32 : BitVec 32).toNat = 0 := rfl; omega)
  have h2 : IntOp.cmpi .sle (wrapIdx I i) 99999#32 = 1#1 :=
    (sle_iff_toNat (by omega) (by decide)).2 (by have : (99999#32 : BitVec 32).toNat = 99999 := rfl; omega)
  show IntOp.andi (IntOp.cmpi .sge (wrapIdx I i) 0#32) (IntOp.cmpi .sle (wrapIdx I i) 99999#32) = 1#1
  rw [h1, h2]; rfl

/-- A select whose mask, one bit per row broadcast along the row, is all ones is its first branch. -/
theorem select_rows_one {α : Type} {d : Nat} (hb : S1200000.BroadcastsInDim (⟨2, ![1200000, d]⟩ : Shape) ![0])
    (m : IVec S1200000 1) (hm : ∀ e, m e = 1#1) (G fill : (⟨2, ![1200000, d]⟩ : Shape).Idx → α) :
    select (broadcastInDim (⟨2, ![1200000, d]⟩ : Shape) ![0] hb m) G fill = G := by
  funext i
  rw [select_apply]
  have h1 : broadcastInDim (⟨2, ![1200000, d]⟩ : Shape) ![0] hb m i = 1#1 := hm _
  rw [h1, select_one]

/-- Moving a value to an equal type and back changes nothing. -/
theorem cast_cast_self {α β : Type} (h : α = β) (h' : β = α) (v : α) : cast h' (cast h v) = v := by
  subst h; rfl

set_option maxHeartbeats 1000000 in
/-- The first layer's neighbour features: the input table's rows at the source ids. -/
theorem take_v4 (Wb : Valuation τ sig (Elt F)) (hr : InRange (Wb (Proc.devRef .tc main_v1))) :
    StableHlo.after (hostOps0_1 (F := F)) Wb (Proc.devRef .tc main_v4)
      = Host.gather gather_S100000x16_S1200000x1_S1200000x16_1_0_n_n_0_1_116 (Wb (Proc.devRef .tc main_arg0)) (wrapIdx (Wb (Proc.devRef .tc main_v1))) := by
  dsimp only [hostOps0_1]
  after_results_simp
  simp only [cast_cast_self]
  have e1 : (TRef.of main_v1 : TRef sig ⟨S1200000, .i32⟩).ofBuf (Wb (Proc.devRef .tc main_v1)) = Wb (Proc.devRef .tc main_v1) := rfl
  have e0 : (TRef.of main_arg0 : TRef sig ⟨S100000x16, .f32⟩).ofBuf (Wb (Proc.devRef .tc main_arg0)) = Wb (Proc.devRef .tc main_arg0) := rfl
  have e4 : ∀ v : FVec F S1200000x16 .f32, (TRef.of main_v4 : TRef sig ⟨S1200000x16, .f32⟩).toBuf (Val := Elt F) v = v := fun _ => rfl
  rw [e4, e0, e1]
  exact select_rows_one bcast_S1200000_S1200000x16_0 (rangeMask (wrapIdx (Wb (Proc.devRef .tc main_v1)))) (rangeMask_wrapIdx _ hr)
    (Host.gather gather_S100000x16_S1200000x1_S1200000x16_1_0_n_n_0_1_116 (Wb (Proc.devRef .tc main_arg0)) (wrapIdx (Wb (Proc.devRef .tc main_v1))))
    (broadcastInDim S1200000x16 ![] bcast_S_S1200000x16 (constant S_ .f32 0x7FC00000#32))

set_option maxHeartbeats 1000000 in
/-- The second layer's neighbour features: the first layer's rows at the source ids. -/
theorem take_v18 (Wb : Valuation τ sig (Elt F)) (hr : InRange (Wb (Proc.devRef .tc main_v1))) :
    StableHlo.after (hostOps1 (F := F)) Wb (Proc.devRef .tc main_v18)
      = Host.gather gather_S100000x64_S1200000x1_S1200000x64_1_0_n_n_0_1_164 (Wb (Proc.devRef .tc main_v17)) (wrapIdx (Wb (Proc.devRef .tc main_v1))) := by
  dsimp only [hostOps1]
  after_results_simp
  simp only [cast_cast_self]
  have e1 : (TRef.of main_v1 : TRef sig ⟨S1200000, .i32⟩).ofBuf (Wb (Proc.devRef .tc main_v1)) = Wb (Proc.devRef .tc main_v1) := rfl
  have e0 : (TRef.of main_v17 : TRef sig ⟨S100000x64, .f32⟩).ofBuf (Wb (Proc.devRef .tc main_v17)) = Wb (Proc.devRef .tc main_v17) := rfl
  have e4 : ∀ v : FVec F S1200000x64 .f32, (TRef.of main_v18 : TRef sig ⟨S1200000x64, .f32⟩).toBuf (Val := Elt F) v = v := fun _ => rfl
  rw [e4, e0, e1]
  exact select_rows_one bcast_S1200000_S1200000x64_0 (rangeMask (wrapIdx (Wb (Proc.devRef .tc main_v1)))) (rangeMask_wrapIdx _ hr)
    (Host.gather gather_S100000x64_S1200000x1_S1200000x64_1_0_n_n_0_1_164 (Wb (Proc.devRef .tc main_v17)) (wrapIdx (Wb (Proc.devRef .tc main_v1))))
    (broadcastInDim S1200000x64 ![] bcast_S_S1200000x64 (constant S_ .f32 0x7FC00000#32))

set_option maxHeartbeats 1000000 in
/-- The edge scorer's first endpoint rows: the second layer's rows at the source ids. -/
theorem take_v32 (Wb : Valuation τ sig (Elt F)) (hr : InRange (Wb (Proc.devRef .tc main_v1))) :
    StableHlo.after (hostOps2 (F := F)) Wb (Proc.devRef .tc main_v32)
      = Host.gather gather_S100000x64_S1200000x1_S1200000x64_1_0_n_n_0_1_164 (Wb (Proc.devRef .tc main_v31)) (wrapIdx (Wb (Proc.devRef .tc main_v1))) := by
  dsimp only [hostOps2]
  after_results_simp
  simp only [cast_cast_self]
  have e1 : (TRef.of main_v1 : TRef sig ⟨S1200000, .i32⟩).ofBuf (Wb (Proc.devRef .tc main_v1)) = Wb (Proc.devRef .tc main_v1) := rfl
  have e0 : (TRef.of main_v31 : TRef sig ⟨S100000x64, .f32⟩).ofBuf (Wb (Proc.devRef .tc main_v31)) = Wb (Proc.devRef .tc main_v31) := rfl
  have e4 : ∀ v : FVec F S1200000x64 .f32, (TRef.of main_v32 : TRef sig ⟨S1200000x64, .f32⟩).toBuf (Val := Elt F) v = v := fun _ => rfl
  rw [e4, e0, e1]
  exact select_rows_one bcast_S1200000_S1200000x64_0 (rangeMask (wrapIdx (Wb (Proc.devRef .tc main_v1)))) (rangeMask_wrapIdx _ hr)
    (Host.gather gather_S100000x64_S1200000x1_S1200000x64_1_0_n_n_0_1_164 (Wb (Proc.devRef .tc main_v31)) (wrapIdx (Wb (Proc.devRef .tc main_v1))))
    (broadcastInDim S1200000x64 ![] bcast_S_S1200000x64 (constant S_ .f32 0x7FC00000#32))

set_option maxHeartbeats 1000000 in
/-- The edge scorer's second endpoint rows: the second layer's rows at the target ids. -/
theorem take_v33 (Wb : Valuation τ sig (Elt F)) (hr : InRange (Wb (Proc.devRef .tc main_v3))) :
    StableHlo.after (hostOps2_1 (F := F)) Wb (Proc.devRef .tc main_v33)
      = Host.gather gather_S100000x64_S1200000x1_S1200000x64_1_0_n_n_0_1_164 (Wb (Proc.devRef .tc main_v31)) (wrapIdx (Wb (Proc.devRef .tc main_v3))) := by
  dsimp only [hostOps2_1]
  after_results_simp
  simp only [cast_cast_self]
  have e1 : (TRef.of main_v3 : TRef sig ⟨S1200000, .i32⟩).ofBuf (Wb (Proc.devRef .tc main_v3)) = Wb (Proc.devRef .tc main_v3) := rfl
  have e0 : (TRef.of main_v31 : TRef sig ⟨S100000x64, .f32⟩).ofBuf (Wb (Proc.devRef .tc main_v31)) = Wb (Proc.devRef .tc main_v31) := rfl
  have e4 : ∀ v : FVec F S1200000x64 .f32, (TRef.of main_v33 : TRef sig ⟨S1200000x64, .f32⟩).toBuf (Val := Elt F) v = v := fun _ => rfl
  rw [e4, e0, e1]
  exact select_rows_one bcast_S1200000_S1200000x64_0 (rangeMask (wrapIdx (Wb (Proc.devRef .tc main_v3)))) (rangeMask_wrapIdx _ hr)
    (Host.gather gather_S100000x64_S1200000x1_S1200000x64_1_0_n_n_0_1_164 (Wb (Proc.devRef .tc main_v31)) (wrapIdx (Wb (Proc.devRef .tc main_v3))))
    (broadcastInDim S1200000x64 ![] bcast_S_S1200000x64 (constant S_ .f32 0x7FC00000#32))

end Cert.KernelIdeal.Take

end
-- ==== Proof.HostStretches.lean ====
/-
  The host stretches of the kernel program, read as functions of the buffer contents they start from.

  Between its three kernel regions the kernel program runs plain array operations: it splits `edge_index` into its
  source row and its destination row; it forms the mean aggregation of the gathered rows (a scatter-add of the rows
  by destination into zeros, the in-degree as a scatter-add of ones, the maximum of the degree with one, that column
  broadcast along the features, and the quotient); it reshapes the bias vectors to one-row matrices; it pads the two
  arrays of endpoint rows from 1200000 to 1204224 rows; and at the end it cuts the 1204224 scores back to 1200000.

  Each statement below says what one result buffer holds after such a stretch has run from contents `Wb`. Where the
  reference program runs the very same operations (the split of `edge_index`, the two mean aggregations) the result
  is the reference's own stage function, provided the buffers the stretch reads already hold the reference's
  earlier stages: both sides are then the same term, operation by operation. The layout operations are read at one
  index: a reshape of a vector to a one-row matrix reads the vector at the column; a pad with no low padding and no
  interior padding reads the operand at every index inside the operand's box, whatever the padding value; a slice
  from offset zero reads the operand at the same position. No law of the float family is used: everything holds
  for every family `F`.
-/
import proofs.«424958_j48172353192035_2_alg».proof.Proof.Gen.KernelIdeal.Launch
import proofs.«424958_j48172353192035_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Host

open Cert.KernelIdeal Cert.KernelIdeal.Gen Idealize.ShloMosaic Idealize.ShloMosaic.StableHlo Idealize.ShloMosaic.ValueIdx

variable {F : FTy → Type} [FloatOps F]

/-! ## The two rows of `edge_index` -/

/-- The source ids: row 0 of `edge_index` sliced out and flattened, the reference's stage 1 of the same argument. -/
theorem ids_src (Wb : Valuation τ sig (Elt F)) :
    StableHlo.after (hostOps0 (F := F)) Wb (Proc.devRef .tc main_v1)
      = Cert.ReferenceIdeal.Read.val_main_v1 (F := F) (Wb (Proc.devRef .tc main_arg1)) := by
  simp only [hostOps0]
  after_results
  unfold Cert.ReferenceIdeal.Read.val_main_v1 Cert.ReferenceIdeal.Read.val_main_v0
  rfl

/-- The destination ids: row 1 of `edge_index` sliced out and flattened, the reference's stage 3. -/
theorem ids_dst (Wb : Valuation τ sig (Elt F)) :
    StableHlo.after (hostOps0 (F := F)) Wb (Proc.devRef .tc main_v3)
      = Cert.ReferenceIdeal.Read.val_main_v3 (F := F) (Wb (Proc.devRef .tc main_arg1)) := by
  simp only [hostOps0]
  after_results
  unfold Cert.ReferenceIdeal.Read.val_main_v3 Cert.ReferenceIdeal.Read.val_main_v2
  rfl

/-! ## The mean aggregations -/

/-- Layer 1's aggregate. If the gathered rows are the reference's stage 10 and the destination ids its stage 3, then
    the quotient of the scatter-added rows by the broadcast `max(degree, 1)` is the reference's stage 21: the sixteen
    operations are the reference's stages 11 to 21 in the same order on the same operands. -/
theorem agg1 (Wb : Valuation τ sig (Elt F)) (x0 : (⟨Cert.ReferenceIdeal.S100000x16, .f32⟩ : BufTy).Contents (Elt F))
    (x1 : (⟨Cert.ReferenceIdeal.S2x1200000, .i32⟩ : BufTy).Contents (Elt F))
    (h4 : Wb (Proc.devRef .tc main_v4) = Cert.ReferenceIdeal.Read.val_main_v10 (F := F) x0 x1)
    (h3 : Wb (Proc.devRef .tc main_v3) = Cert.ReferenceIdeal.Read.val_main_v3 (F := F) x1) :
    StableHlo.after (hostOps0_2 (F := F)) Wb (Proc.devRef .tc main_v15) = Cert.ReferenceIdeal.Read.val_main_v21 (F := F) x0 x1 := by
  simp only [hostOps0_2]
  after_results
  rw [h4, h3]
  unfold Cert.ReferenceIdeal.Read.val_main_v21 Cert.ReferenceIdeal.Read.val_main_v20 Cert.ReferenceIdeal.Read.val_main_v19
    Cert.ReferenceIdeal.Read.val_main_v18 Cert.ReferenceIdeal.Read.val_main_cst_3 Cert.ReferenceIdeal.Read.val_main_v17
    Cert.ReferenceIdeal.Read.val_main_v16 Cert.ReferenceIdeal.Read.val_main_v15 Cert.ReferenceIdeal.Read.val_main_cst_2
    Cert.ReferenceIdeal.Read.val_main_v14 Cert.ReferenceIdeal.Read.val_main_cst_1 Cert.ReferenceIdeal.Read.val_main_v13
    Cert.ReferenceIdeal.Read.val_main_v12 Cert.ReferenceIdeal.Read.val_main_v11 Cert.ReferenceIdeal.Read.val_main_cst
  rfl

/-- Layer 2's aggregate, the same over 64 features: from the reference's stage 37 (the gathered rows of the first
    layer's output) and stage 3 to its stage 48, through its stages 38 to 48. -/
theorem agg2 (Wb : Valuation τ sig (Elt F)) (x0 : (⟨Cert.ReferenceIdeal.S100000x16, .f32⟩ : BufTy).Contents (Elt F))
    (x1 : (⟨Cert.ReferenceIdeal.S2x1200000, .i32⟩ : BufTy).Contents (Elt F))
    (x2 : (⟨Cert.ReferenceIdeal.S64x16, .f32⟩ : BufTy).Contents (Elt F)) (x3 : (⟨Cert.ReferenceIdeal.S64, .f32⟩ : BufTy).Contents (Elt F))
    (x4 : (⟨Cert.ReferenceIdeal.S64x16, .f32⟩ : BufTy).Contents (Elt F))
    (h18 : Wb (Proc.devRef .tc main_v18) = Cert.ReferenceIdeal.Read.val_main_v37 (F := F) x0 x1 x2 x3 x4)
    (h3 : Wb (Proc.devRef .tc main_v3) = Cert.ReferenceIdeal.Read.val_main_v3 (F := F) x1) :
    StableHlo.after (hostOps1_1 (F := F)) Wb (Proc.devRef .tc main_v29) = Cert.ReferenceIdeal.Read.val_main_v48 (F := F) x0 x1 x2 x3 x4 := by
  simp only [hostOps1_1]
  after_results
  rw [h18, h3]
  unfold Cert.ReferenceIdeal.Read.val_main_v48 Cert.ReferenceIdeal.Read.val_main_v47 Cert.ReferenceIdeal.Read.val_main_v46
    Cert.ReferenceIdeal.Read.val_main_v45 Cert.ReferenceIdeal.Read.val_main_cst_9 Cert.ReferenceIdeal.Read.val_main_v44
    Cert.ReferenceIdeal.Read.val_main_v43 Cert.ReferenceIdeal.Read.val_main_v42 Cert.ReferenceIdeal.Read.val_main_cst_8
    Cert.ReferenceIdeal.Read.val_main_v41 Cert.ReferenceIdeal.Read.val_main_cst_7 Cert.ReferenceIdeal.Read.val_main_v40
    Cert.ReferenceIdeal.Read.val_main_v39 Cert.ReferenceIdeal.Read.val_main_v38 Cert.ReferenceIdeal.Read.val_main_cst_6
  rfl

/-! ## The bias vectors as one-row matrices -/

/-- Layer 1's bias reshaped `[64] → [1, 64]`: entry `(0, q)` is entry `q` of the vector. -/
theorem bias1 (Wb : Valuation τ sig (Elt F)) (q : Fin 64) :
    StableHlo.after (hostOps0_2 (F := F)) Wb (Proc.devRef .tc main_v16) (ix2 (0 : Fin 1) q) = Wb (Proc.devRef .tc main_arg3) (ix1 q) := by
  simp only [hostOps0_2]
  after_results
  exact shapeCast_a_1a_apply _ _ _ _

/-- Layer 2's bias reshaped `[64] → [1, 64]`. -/
theorem bias2 (Wb : Valuation τ sig (Elt F)) (q : Fin 64) :
    StableHlo.after (hostOps1_1 (F := F)) Wb (Proc.devRef .tc main_v30) (ix2 (0 : Fin 1) q) = Wb (Proc.devRef .tc main_arg6) (ix1 q) := by
  simp only [hostOps1_1]
  after_results
  exact shapeCast_a_1a_apply _ _ _ _

/-- The scorer's hidden bias reshaped `[16] → [1, 16]`. -/
theorem bias3 (Wb : Valuation τ sig (Elt F)) (j : Fin 16) :
    StableHlo.after (hostOps2_6 (F := F)) Wb (Proc.devRef .tc main_v36) (ix2 (0 : Fin 1) j) = Wb (Proc.devRef .tc main_arg9) (ix1 j) := by
  simp only [hostOps2_6]
  after_results
  exact shapeCast_a_1a_apply _ _ _ _

/-- The scorer's output bias reshaped `[1] → [1, 1]`. -/
theorem bias4 (Wb : Valuation τ sig (Elt F)) :
    StableHlo.after (hostOps2_6 (F := F)) Wb (Proc.devRef .tc main_v37) (ix2 (0 : Fin 1) (0 : Fin 1)) = Wb (Proc.devRef .tc main_arg11) (ix1 (0 : Fin 1)) := by
  simp only [hostOps2_6]
  after_results
  exact shapeCast_a_1a_apply _ _ _ _

/-! ## The endpoint rows padded to whole blocks, and the scores cut back -/

/-- The source rows padded with 4224 rows at the high end: row `e < 1200000` of the result is row `e` of the
    operand (no low padding, no interior padding: position `e` is `0 + e · 1`). The padding value is not read. -/
theorem pad_src (Wb : Valuation τ sig (Elt F)) (e : Fin 1204224) (he : e.val < 1200000) (k : Fin 64) :
    StableHlo.after (hostOps2_3 (F := F)) Wb (Proc.devRef .tc main_v34) (ix2 e k)
      = Wb (Proc.devRef .tc main_v32) (ix2 (⟨e.val, he⟩ : Fin 1200000) k) := by
  simp only [hostOps2_3]
  after_results
  simp only [TRef.ofBuf, TRef.toBuf, cast_eq]
  exact pad_apply_of_inside _ _ _ _ _ _ _ _ (ix2 (⟨e.val, he⟩ : Fin 1200000) k) (fun a => match a with
    | ⟨0, _⟩ => by show e.val = 0 + e.val * (0 + 1); omega
    | ⟨1, _⟩ => by show k.val = 0 + k.val * (0 + 1); omega)

/-- The destination rows padded the same way. -/
theorem pad_dst (Wb : Valuation τ sig (Elt F)) (e : Fin 1204224) (he : e.val < 1200000) (k : Fin 64) :
    StableHlo.after (hostOps2_5 (F := F)) Wb (Proc.devRef .tc main_v35) (ix2 e k)
      = Wb (Proc.devRef .tc main_v33) (ix2 (⟨e.val, he⟩ : Fin 1200000) k) := by
  simp only [hostOps2_5]
  after_results
  simp only [TRef.ofBuf, TRef.toBuf, cast_eq]
  exact pad_apply_of_inside _ _ _ _ _ _ _ _ (ix2 (⟨e.val, he⟩ : Fin 1200000) k) (fun a => match a with
    | ⟨0, _⟩ => by show e.val = 0 + e.val * (0 + 1); omega
    | ⟨1, _⟩ => by show k.val = 0 + k.val * (0 + 1); omega)

/-- The scores cut back to the 1200000 edges: a slice from offset zero reads the operand at the same position. -/
theorem slice_out (Wb : Valuation τ sig (Elt F)) (e : Fin 1200000) :
    StableHlo.after (hostOps3 (F := F)) Wb (Proc.devRef .tc main_v39) (ix1 e)
      = Wb (Proc.devRef .tc main_v38) (ix1 (⟨e.val, by have := e.isLt; omega⟩ : Fin 1204224)) := by
  simp only [hostOps3]
  after_results
  exact extractStridedSlice_apply (s := S1204224) (t := S1200000) ![0] (Wb (Proc.devRef .tc main_v38)) slices_S1204224_S1200000_0
    (ix1 e) (ix1 (⟨e.val, by have := e.isLt; omega⟩ : Fin 1204224)) (fun a => match a with
    | ⟨0, _⟩ => by show e.val = 0 + e.val; omega)

end Cert.KernelIdeal.Host

end
-- ==== Proof.Layer1Region.lean ====
/-
  The value of the first dense region (the first SAGE layer with its rectifier), as one function of the arrays the
  region finds when it is entered.

  The region walks the 100000 nodes in 10 row blocks of 10000. At block `t` the body reads rows
  `10000·t … 10000·t + 9999` of the aggregate and of the node features, the two whole [64,16] weight arrays and the
  whole [1,64] bias row, and writes rows `10000·t … 10000·t + 9999` of the [100000,64] output:
  entry (p, q) of the written block is  max((∑ₖ agg[p,k]·Wl[q,k]) + b[q] + ∑ₖ h[p,k]·Wr[q,k], 0).
  Two steps: the block arithmetic at an index (`pay_apply`: the two block products are sums over the 16 features; the
  transposed weight block read at (k, q) is the weight at (q, k); narrowing to bf16 is the identity on the extended
  reals; the zero accumulator adds nothing), and from blocks to the array (`final`: each written block is the block of
  ONE whole-array function, `Cert.Sage.layer1`, because row `p` of block `t` is row `10000·t + p` of every
  row-blocked array; the ten blocks cover every row, row `r` lying in block `r / 10000`).
-/
import proofs.«424958_j48172353192035_2_alg».proof.Proof.Gen.KernelIdeal.Frame
import proofs.«424958_j48172353192035_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer1

open Cert.KernelIdeal Cert.KernelIdeal.Gen Idealize.ShloMosaic Idealize.ShloMosaic.ValueIdx
open Idealize.ShloMosaic.TcCoe Idealize.SL.Sem
open Idealize.ShloMosaic.Pipeline (Dat)

/-! ## The block product's operand indices, axis by axis -/

/-- The left operand's row is the output's row. -/
theorem lhs_dot_0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
/-- The left operand's column is the contraction index. -/
theorem lhs_dot_1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
/-- The right operand's row is the contraction index. -/
theorem rhs_dot_0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
/-- The right operand's column is the output's column. -/
theorem rhs_dot_1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-- A [10000,16] × [16,64] block product into the zero accumulator, at row `p` and column `q`: the sum over the 16
    contracted features of the operands' products. -/
theorem matmul_zero_apply (a : FVec Ideal S10000x16 .bf16) (w : FVec Ideal S16x64 .bf16) (p : Fin 10000) (q : Fin 64) :
    matmul dot_S10000x16_S16x64_S10000x64_1_0_0_1_n_n none a w (constant (F := Ideal) S10000x64 .f32 0x00000000#32) (ix2 p q)
      = ∑ k : Fin 16, a (ix2 p k) * w (ix2 k q) := by
  simp only [matmul]
  rw [Ideal.matmul_constant_zero_apply, ← Equiv.sum_comp (contrEquiv1 dot_S10000x16_S16x64_S10000x64_1_0_0_1_n_n 16 rfl rfl).symm]
  refine Finset.sum_congr rfl fun k _ => ?_
  have hk := contrEquiv1_symm_val dot_S10000x16_S16x64_S10000x64_1_0_0_1_n_n 16 rfl rfl k
  have el : dot_S10000x16_S16x64_S10000x64_1_0_0_1_n_n.lhsIdx (ix2 p q) ((contrEquiv1 dot_S10000x16_S16x64_S10000x64_1_0_0_1_n_n 16 rfl rfl).symm k) = ix2 p k := funext fun a => Fin.ext (by
    match a with
    | ⟨0, _⟩ => exact lhs_dot_0 _ _
    | ⟨1, _⟩ => exact (lhs_dot_1 _ _).trans hk)
  have er : dot_S10000x16_S16x64_S10000x64_1_0_0_1_n_n.rhsIdx (ix2 p q) ((contrEquiv1 dot_S10000x16_S16x64_S10000x64_1_0_0_1_n_n 16 rfl rfl).symm k) = ix2 k q := funext fun a => Fin.ext (by
    match a with
    | ⟨0, _⟩ => exact (rhs_dot_0 _ _).trans hk
    | ⟨1, _⟩ => exact rhs_dot_1 _ _)
  rw [el, er]

/-- The transposed weight block at (feature `k`, unit `q`) is the weight at (unit `q`, feature `k`). -/
theorem transpose_w_apply (w : FVec Ideal S64x16 .bf16) (k : Fin 16) (q : Fin 64) :
    transpose S16x64 [1, 0] w transposes_S64x16_p1_0_S16x64 (ix2 k q) = w (ix2 q k) :=
  transpose_apply [1, 0] w transposes_S64x16_p1_0_S16x64 (ix2 k q) (ix2 q k) (fun b => match b with
    | ⟨0, _⟩ => rfl
    | ⟨1, _⟩ => rfl)

/-- The bias row broadcast down the block's rows reads the bias at the column. -/
theorem broadcast_b_apply (b : FVec Ideal S1x64 .f32) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => match a with
    | ⟨0, _⟩ => rfl
    | ⟨1, _⟩ => rfl)

/-- The block product of a row block with a transposed weight block, both read through the (identity) narrowing:
    row `p`, unit `q` is the sum over the 16 features `k` of (row entry at `k`) × (weight at unit `q`, feature `k`). -/
theorem matmul_wT_apply (a : FVec Ideal S10000x16 .f32) (w : FVec Ideal S64x16 .f32) (p : Fin 10000) (q : Fin 64) :
    matmul dot_S10000x16_S16x64_S10000x64_1_0_0_1_n_n none (truncf .bf16 a bitsLt_bf16_f32)
        (transpose S16x64 [1, 0] (truncf .bf16 w bitsLt_bf16_f32) transposes_S64x16_p1_0_S16x64)
        (constant (F := Ideal) S10000x64 .f32 0x00000000#32) (ix2 p q)
      = ∑ k : Fin 16, a (ix2 p k) * w (ix2 q k) := by
  rw [matmul_zero_apply]
  refine Finset.sum_congr rfl fun k _ => ?_
  rw [transpose_w_apply, truncf_apply, truncf_apply]

/-- The first layer's block arithmetic at row `p`, unit `q`: the rectified SAGE row of the block's row `p`. The two
    block products are sums over the 16 input features of (row entry) × (weight at unit `q`, feature `k`): the
    kernel's transpose of each weight block is what puts the unit first in `sageRow`'s reading `W (ix2 q k)`. -/
theorem pay_apply (x0 x1 : Vec Ideal S10000x16 .f32) (x2 x4 : Vec Ideal S64x16 .f32) (x3 : Vec Ideal S1x64 .f32) (p : Fin 10000) (q : Fin 64) :
    k0_pay1 (F := Ideal) x0 x1 x2 x4 x3 (ix2 p q)
      = max (Cert.Sage.sageRow (fun k => x0 (ix2 p k)) (fun k => x1 (ix2 p k)) x2 x4 (fun q' => x3 (ix2 (0 : Fin 1) q')) q) 0 := by
  unfold k0_pay1 Cert.Sage.sageRow
  dsimp only
  rw [shapeCast_self, shapeCast_self]
  refine (maximumf_apply _ _ _).trans ?_
  rw [addf_apply, addf_apply, broadcast_apply, matmul_wT_apply, matmul_wT_apply, broadcast_b_apply]
  exact congrArg (max _) Ideal.ofBits_zero_f32

/-! ## From blocks to the array -/

theorem zeros2 : (![0, 0] : Fin 2 → Nat) = fun _ => 0 := funext fun a => by
  match a with
  | ⟨0, _⟩ => rfl
  | ⟨1, _⟩ => rfl

/-- The block index maps over the ten grid points: the aggregate, the features and the output move together, block
    `t` at point `t` on the row axis and block 0 on the feature axis; the weights and the bias stay at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b))

/-- Row `p` of the aggregate's block at point `t` is row `10000·t + p` of the aggregate. -/
theorem agg_blk_apply (c : Dev nD) (t : Fin cfg0.N) (p : Fin 10000) (k : Fin 16) (r : Fin 100000) (hr : r.val = t.val * 10000 + p.val) :
    (iblk0 (F := Ideal) V c 0 t : Vec Ideal S10000x16 .f32) (ix2 p k) = (V c main_v15 : Vec Ideal S100000x16 .f32) (ix2 r k) := by
  obtain ⟨e0, e1, -⟩ := idx_facts t
  show (V c main_v15 : Vec Ideal S100000x16 .f32) (((cfg0.win 0).blk t).view.emb (ix2 p k)) = _
  refine congrArg _ (funext fun a => Fin.ext ?_)
  match a with
  | ⟨0, _⟩ => show win0_0.index t (0 : Fin 2) * 10000 + 1 * p.val = r.val; omega
  | ⟨1, _⟩ => show win0_0.index t (1 : Fin 2) * 16 + 1 * k.val = k.val; omega

/-- Row `p` of the features' block at point `t` is row `10000·t + p` of the features. -/
theorem feat_blk_apply (c : Dev nD) (t : Fin cfg0.N) (p : Fin 10000) (k : Fin 16) (r : Fin 100000) (hr : r.val = t.val * 10000 + p.val) :
    (iblk0 (F := Ideal) V c 1 t : Vec Ideal S10000x16 .f32) (ix2 p k) = (V c main_arg0 : Vec Ideal S100000x16 .f32) (ix2 r k) := by
  obtain ⟨-, -, e0, e1, -⟩ := idx_facts t
  show (V c main_arg0 : Vec Ideal S100000x16 .f32) (((cfg0.win 1).blk t).view.emb (ix2 p k)) = _
  refine congrArg _ (funext fun a => Fin.ext ?_)
  match a with
  | ⟨0, _⟩ => show win0_1.index t (0 : Fin 2) * 10000 + 1 * p.val = r.val; omega
  | ⟨1, _⟩ => show win0_1.index t (1 : Fin 2) * 16 + 1 * k.val = k.val; omega

/-- The neighbour weights' block at every point is the whole array. -/
theorem wl_blk_eq (c : Dev nD) (t : Fin cfg0.N) :
    (iblk0 (F := Ideal) V c 2 t : Vec Ideal S64x16 .f32) = (V c main_arg2 : Vec Ideal S64x16 .f32) := by
  obtain ⟨-, -, -, -, e0, e1, -⟩ := idx_facts t
  funext y
  show (V c main_arg2 : Vec Ideal S64x16 .f32) (((cfg0.win 2).blk t).view.emb y) = _
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 16 + 1 * (y 1).val = (y 1).val; omega

/-- The bias row's block at every point is the whole row. -/
theorem bias_blk_eq (c : Dev nD) (t : Fin cfg0.N) :
    (iblk0 (F := Ideal) V c 3 t : Vec Ideal S1x64 .f32) = (V c main_v16 : Vec Ideal S1x64 .f32) := by
  obtain ⟨-, -, -, -, -, -, e0, e1, -⟩ := idx_facts t
  funext y
  show (V c main_v16 : Vec Ideal S1x64 .f32) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The self weights' block at every point is the whole array. -/
theorem wr_blk_eq (c : Dev nD) (t : Fin cfg0.N) :
    (iblk0 (F := Ideal) V c 4 t : Vec Ideal S64x16 .f32) = (V c main_arg4 : Vec Ideal S64x16 .f32) := by
  obtain ⟨-, -, -, -, -, -, -, -, e0, e1, -⟩ := idx_facts t
  funext y
  show (V c main_arg4 : Vec Ideal S64x16 .f32) (((cfg0.win 4).blk t).view.emb y) = _
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 16 + 1 * (y 1).val = (y 1).val; omega

end

section
variable (V : (c : Dev nD) → (b : Ref sig .tc) → Buf (Elt Ideal) ((c : Thread nD τ).loc b))

/-- One written entry, over blocks given as variables: when row `p` of the two row blocks is row `r` of the two
    row-blocked arrays, and the weight and bias blocks are the whole arrays, the block arithmetic at (p, q) is the first
    layer at (r, q). -/
theorem pay_eq_layer1 (X0 X1 : Vec Ideal S10000x16 .f32) (X2 X4 : Vec Ideal S64x16 .f32) (X3 : Vec Ideal S1x64 .f32)
    (A H : Vec Ideal S100000x16 .f32) (Wl Wr : Vec Ideal S64x16 .f32) (B : Vec Ideal S1x64 .f32)
    (p : Fin 10000) (q : Fin 64) (r : Fin 100000)
    (h0 : ∀ k : Fin 16, X0 (ix2 p k) = A (ix2 r k)) (h1 : ∀ k : Fin 16, X1 (ix2 p k) = H (ix2 r k))
    (h2 : X2 = Wl) (h3 : X3 = B) (h4 : X4 = Wr) :
    k0_pay1 (F := Ideal) X0 X1 X2 X4 X3 (ix2 p q)
      = Cert.Sage.layer1 A H Wl Wr (fun q' => B (ix2 (0 : Fin 1) q')) (ix2 r q) := by
  rw [pay_apply, h2, h3, h4]
  unfold Cert.Sage.layer1
  show max (Cert.Sage.sageRow (fun k => X0 (ix2 p k)) (fun k => X1 (ix2 p k)) Wl Wr _ q) 0
    = max (Cert.Sage.sageRow (fun k => A (ix2 r k)) (fun k => H (ix2 r k)) Wl Wr _ q) 0
  rw [funext h0, funext h1]

/-- WHAT POINT `t` WRITES BACK is block `t` of the first layer of the arrays the region finds. -/
theorem flushed_eq (c : Dev nD) (t : Fin cfg0.N) :
    (dat0 (F := Ideal) V c).flushed 5 t = ((cfg0.win 5).blk t).view.read (Elt Ideal)
      (Cert.Sage.layer1 (V c main_v15) (V c main_arg0) (V c main_arg2) (V c main_arg4) (fun q => V c main_v16 (ix2 (0 : Fin 1) q))) := by
  show (cfg0.win 5).cut (grid0.coords t) ((dat0 V c).after 5 t) = _
  rw [after0_5]
  unfold out0_5
  rw [View.canon_unit_zero zeros2]
  simp only [View.ld_unit_zero (S := S10000x16) zeros2, View.ld_unit_zero (S := S64x16) zeros2, View.ld_unit_zero (S := S1x64) zeros2]
  obtain ⟨-, -, -, -, -, -, -, -, -, -, e0, e1⟩ := idx_facts t
  have hN : cfg0.N = 10 := N_0
  have ht : t.val < 10 := by have := t.isLt; omega
  funext j
  have hj0 : (j 0).val < 10000 := (j 0).isLt
  have hj1 : (j 1).val < 64 := (j 1).isLt
  obtain ⟨p, hp⟩ : ∃ p : Fin 10000, p.val = (j 0).val := ⟨⟨_, hj0⟩, rfl⟩
  obtain ⟨q, hq⟩ : ∃ q : Fin 64, q.val = (j 1).val := ⟨⟨_, hj1⟩, rfl⟩
  obtain ⟨r, hr⟩ : ∃ r : Fin 100000, r.val = t.val * 10000 + p.val := ⟨⟨t.val * 10000 + p.val, by have := p.isLt; omega⟩, rfl⟩
  show k0_pay1 (F := Ideal) (iblk0 V c 0 t) (iblk0 V c 1 t) (iblk0 V c 2 t) (iblk0 V c 4 t) (iblk0 V c 3 t) ((cfg0.win 5).xinj (grid0.coords t) j)
    = Cert.Sage.layer1 (V c main_v15) (V c main_arg0) (V c main_arg2) (V c main_arg4) (fun q => V c main_v16 (ix2 (0 : Fin 1) q)) (((cfg0.win 5).blk t).view.emb j)
  have ex : (cfg0.win 5).xinj (grid0.coords t) j = ix2 p q := funext fun a => Fin.ext (by
    match a with
    | ⟨0, _⟩ => exact hp.symm
    | ⟨1, _⟩ => exact hq.symm)
  have ee : ((cfg0.win 5).blk t).view.emb j = ix2 r q := funext fun a => Fin.ext (by
    match a with
    | ⟨0, _⟩ => show win0_5.index t (0 : Fin 2) * 10000 + 1 * (j 0).val = r.val; omega
    | ⟨1, _⟩ => show win0_5.index t (1 : Fin 2) * 64 + 1 * (j 1).val = q.val; omega)
  rw [ex, ee]
  exact pay_eq_layer1 (iblk0 V c 0 t) (iblk0 V c 1 t) (iblk0 V c 2 t) (iblk0 V c 4 t) (iblk0 V c 3 t)
    (V c main_v15) (V c main_arg0) (V c main_arg2) (V c main_arg4) (V c main_v16) p q r
    (fun k => agg_blk_apply V c t p k r hr) (fun k => feat_blk_apply V c t p k r hr)
    (wl_blk_eq V c t) (bias_blk_eq V c t) (wr_blk_eq V c t)

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v17).slice (win0_5.rect t)).set ↔ _
  rw [View.set_slice_whole, Rect.mem_set_unit]
  exact Iff.rfl

/-- Every index of the output array is in some point's block: row `r` is in block `r / 10000`. -/
theorem cover (i : S100000x64.Idx) : ∃ t : Fin cfg0.N, (cfg0.win 5).flush t = true ∧ i ∈ ((cfg0.win 5).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE OUTPUT ARRAY when the region is left: the first layer (with its rectifier) of the aggregate, the features, the
    two weight arrays and the bias row, as the region found them. -/
theorem final (c : Dev nD) :
    (dat0 (F := Ideal) V c).arrAt 5 cfg0.N
      = Cert.Sage.layer1 (V c main_v15) (V c main_arg0) (V c main_arg2) (V c main_arg4) (fun q => V c main_v16 (ix2 (0 : Fin 1) q)) :=
  (dat0 V c).arrAt_eq_of_cover 5 _ (fun t _ => flushed_eq V c t) cover

end

end Cert.KernelIdeal.Layer1

end
-- ==== Proof.Layer2Region.lean ====
/-
  The second SAGE layer as the kernel program computes it: the value of the second kernel region as one whole-array
  function of the buffer contents the region finds.

  The region walks ten row blocks of 10000 nodes. At each block the body forms, for row p of the block and output
  feature q,   (∑ₖ agg[p,k] · Wl[q,k]) + b[q] + ∑ₖ h[p,k] · Wr[q,k]   (the transposes turn W[k,q]ᵀ back into W[q,k]; at
  the extended reals the narrowing casts are the identity and a product into the zero accumulator is the plain sum).
  Row p of block t is row 10000·t + p of the array, the weight and bias windows are the whole arrays at every block, and
  the ten output blocks tile the 100000 rows: so the array the region leaves is the row-wise layer of the specification.
-/
import proofs.«424958_j48172353192035_2_alg».proof.Proof.Gen.KernelIdeal.Frame
import proofs.«424958_j48172353192035_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer2

open Cert.KernelIdeal Cert.KernelIdeal.Gen Idealize.ShloMosaic Idealize.ShloMosaic.ValueIdx Idealize.ShloMosaic.TcCoe
open Idealize.ShloMosaic.Pipeline (Dat)

/-! ## The block product at an index -/

/-- The left operand of the block product is read at the output's row -/
theorem lhs_axis0 (i : S10000x64.Idx) (r : dot_S10000x64_S64x64_S10000x64_1_0_0_1_n_n.contr.Idx) :
    (dot_S10000x64_S64x64_S10000x64_1_0_0_1_n_n.lhsIdx i r 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- and at the summed feature; -/
theorem lhs_axis1 (i : S10000x64.Idx) (r : dot_S10000x64_S64x64_S10000x64_1_0_0_1_n_n.contr.Idx) :
    (dot_S10000x64_S64x64_S10000x64_1_0_0_1_n_n.lhsIdx i r 1).val = (r ⟨0, by decide⟩).val :=
  dot_S10000x64_S64x64_S10000x64_1_0_0_1_n_n.lhsIdx_val_of_single rfl i r
/-- the right operand at the summed feature -/
theorem rhs_axis0 (i : S10000x64.Idx) (r : dot_S10000x64_S64x64_S10000x64_1_0_0_1_n_n.contr.Idx) :
    (dot_S10000x64_S64x64_S10000x64_1_0_0_1_n_n.rhsIdx i r 0).val = (r ⟨0, by decide⟩).val :=
  dot_S10000x64_S64x64_S10000x64_1_0_0_1_n_n.rhsIdx_val_of_single rfl i r
/-- and at the output's column. -/
theorem rhs_axis1 (i : S10000x64.Idx) (r : dot_S10000x64_S64x64_S10000x64_1_0_0_1_n_n.contr.Idx) :
    (dot_S10000x64_S64x64_S10000x64_1_0_0_1_n_n.rhsIdx i r 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] block times a [64,64] matrix into the zero accumulator, read at row p and column q: the sum over
    the 64 shared features of the products. -/
theorem block_product_apply (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The transposed weight matrix at (k, q) is the weight matrix at (q, k). -/
theorem weight_transposed_apply (W : FVec Ideal S64x64 .bf16) (k q : Fin 64) :
    transpose S64x64 [1, 0] W transposes_S64x64_p1_0_S64x64 (ix2 k q) = W (ix2 q k) :=
  transpose_ix2_apply W transposes_S64x64_p1_0_S64x64 k q

/-- So a block times a transposed weight matrix sums the block's row against the weight matrix's ROW q. -/
theorem block_times_transposed_apply (A : FVec Ideal S10000x64 .bf16) (W : FVec Ideal S64x64 .bf16) (p : Fin 10000) (q : Fin 64) :
    matmul dot_S10000x64_S64x64_S10000x64_1_0_0_1_n_n none A (transpose S64x64 [1, 0] W transposes_S64x64_p1_0_S64x64)
        (constant (F := Ideal) S10000x64 .f32 0x00000000#32) (ix2 p q)
      = ∑ k : Fin 64, A (ix2 p k) * W (ix2 q k) := by
  rw [block_product_apply]
  exact Finset.sum_congr rfl fun k _ => by rw [weight_transposed_apply]

/-- The bias row spread over the block's rows reads, at (p, q), the bias at q. -/
theorem bias_rows_apply (b : FVec Ideal S1x64 .f32) (p : Fin 10000) (q : Fin 64) :
    broadcastTo S10000x64 b broadcasts_S1x64_S10000x64 (ix2 p q) = b (ix2 (0 : Fin 1) q) :=
  broadcastTo_1b_ab_apply b broadcasts_S1x64_S10000x64 p q

/-! ## The body's result at an index -/

/-- THE BODY AT ROW p, FEATURE q of its blocks: the specification's row formula of the two input rows. -/
theorem pay_apply (x0 x1 : Vec Ideal S10000x64 .f32) (x2 x4 : Vec Ideal S64x64 .f32) (x3 : Vec Ideal S1x64 .f32) (p : Fin 10000) (q : Fin 64) :
    k1_pay1 (F := Ideal) x0 x1 x2 x4 x3 (ix2 p q)
      = Cert.Sage.sageRow (fun k => x0 (ix2 p k)) (fun k => x1 (ix2 p k)) x2 x4 (fun q' => x3 (ix2 (0 : Fin 1) q')) q := by
  unfold k1_pay1
  simp only [addf_apply, shapeCast_self]
  rw [block_times_transposed_apply, block_times_transposed_apply, bias_rows_apply]
  rfl

/-- The same with every input row and every weight entry NAMED: if row p of the two row blocks is row r of two arrays A
    and H, and the weight and bias blocks agree with Wl, Wr, B where row q reads them, the body at (p, q) is the
    specification's second layer of those arrays at (r, q). -/
theorem pay_row (x0 x1 : Vec Ideal S10000x64 .f32) (x2 x4 : Vec Ideal S64x64 .f32) (x3 : Vec Ideal S1x64 .f32)
    (A H : FVec Ideal S100000x64 .f32) (Wl Wr : FVec Ideal S64x64 .f32) (B : FVec Ideal S1x64 .f32)
    (p : Fin 10000) (q : Fin 64) (r : Fin 100000)
    (h0 : ∀ k : Fin 64, x0 (ix2 p k) = A (ix2 r k)) (h1 : ∀ k : Fin 64, x1 (ix2 p k) = H (ix2 r k))
    (h2 : ∀ k : Fin 64, x2 (ix2 q k) = Wl (ix2 q k)) (h4 : ∀ k : Fin 64, x4 (ix2 q k) = Wr (ix2 q k))
    (h3 : x3 (ix2 (0 : Fin 1) q) = B (ix2 (0 : Fin 1) q)) :
    k1_pay1 (F := Ideal) x0 x1 x2 x4 x3 (ix2 p q)
      = Cert.Sage.layer2 A H Wl Wr (fun q' => B (ix2 (0 : Fin 1) q')) (ix2 r q) := by
  rw [pay_apply]
  show ((∑ k : Fin 64, x0 (ix2 p k) * x2 (ix2 q k)) + x3 (ix2 (0 : Fin 1) q)) + ∑ k : Fin 64, x1 (ix2 p k) * x4 (ix2 q k)
    = ((∑ k : Fin 64, A (ix2 r k) * Wl (ix2 q k)) + B (ix2 (0 : Fin 1) q)) + ∑ k : Fin 64, H (ix2 r k) * Wr (ix2 q k)
  rw [h3, Finset.sum_congr rfl fun k (_ : k ∈ Finset.univ) => show x0 (ix2 p k) * x2 (ix2 q k) = A (ix2 r k) * Wl (ix2 q k) by rw [h0 k, h2 k],
    Finset.sum_congr rfl fun k (_ : k ∈ Finset.univ) => show x1 (ix2 p k) * x4 (ix2 q k) = H (ix2 r k) * Wr (ix2 q k) by rw [h1 k, h4 k]]

/-! ## From the ten blocks to the array -/

variable (V : (c : Dev nD) → (b : Ref sig .tc) → Buf (Elt Ideal) ((c : Thread nD τ).loc b))

/-- The second layer of the arrays the region finds: what the output array ends holding. -/
abbrev rows (c : Dev nD) : FVec Ideal S100000x64 .f32 :=
  Cert.Sage.layer2 (V c main_v29) (V c main_v17) (V c main_arg5) (V c main_arg7) (fun q => V c main_v30 (ix2 (0 : Fin 1) q))

theorem zero_offsets : (![0, 0] : Fin 2 → Nat) = fun _ => 0 := funext fun a => by fin_cases a <;> rfl

/-- The printed index maps, decided over the ten grid points: the two row windows move with the output window, the
    output's block index is the point's number on the row axis and 0 on the feature axis, and the weight and bias windows
    stay at block 0. -/
theorem index_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Point t's body result, at the block's index j, is the layer at the array index the output block puts j at. -/
theorem point_value (c : Dev nD) (t : Fin cfg1.N) (j : S10000x64.Idx) :
    k1_pay1 (F := Ideal) (iblk1 V c 0 t) (iblk1 V c 1 t) (iblk1 V c 2 t) (iblk1 V c 4 t) (iblk1 V c 3 t) j
      = rows V c (((cfg1.win 5).blk t).view.emb j) := by
  obtain ⟨p, q, rfl⟩ : ∃ (p : Fin 10000) (q : Fin 64), j = ix2 p q := ⟨j 0, j 1, eq_ix2 j⟩
  obtain ⟨o0, o1, a0, a1, b0, b1, c0, c1, d0, d1, e0, e1⟩ := index_facts t
  have hN : cfg1.N = 10 := N_1
  have ht : t.val < 10 := hN ▸ t.isLt
  have hp : p.val < 10000 := p.isLt
  have hq : q.val < 64 := q.isLt
  have eo : ((cfg1.win 5).blk t).view.emb (ix2 p q) = ix2 (⟨t.val * 10000 + p.val, by omega⟩ : Fin 100000) q := by
    funext a; apply Fin.ext
    match a with
    | ⟨0, _⟩ => show win1_5.index t (0 : Fin 2) * 10000 + 1 * p.val = t.val * 10000 + p.val; omega
    | ⟨1, _⟩ => show win1_5.index t (1 : Fin 2) * 64 + 1 * q.val = q.val; omega
  rw [eo]
  refine pay_row _ _ _ _ _ (V c main_v29) (V c main_v17) (V c main_arg5) (V c main_arg7) (V c main_v30) p q _ ?_ ?_ ?_ ?_ ?_
  · intro k
    show V c main_v29 (((cfg1.win 0).blk t).view.emb (ix2 p k)) = V c main_v29 _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · intro k
    show V c main_v17 (((cfg1.win 1).blk t).view.emb (ix2 p k)) = V c main_v17 _
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * k.val = k.val; omega
  · intro k
    show V c main_arg5 (((cfg1.win 2).blk t).view.emb (ix2 q k)) = V c main_arg5 _
    refine congrArg _ (funext fun a => Fin.ext ?_)
    match a with
    | ⟨0, _⟩ => show win1_2.index t (0 : Fin 2) * 64 + 1 * q.val = q.val; omega
    | ⟨1, _⟩ => show win1_2.index t (1 : Fin 2) * 64 + 1 * k.val = k.val; omega
  · intro k
    show V c main_arg7 (((cfg1.win 4).blk t).view.emb (ix2 q k)) = V c main_arg7 _
    refine congrArg _ (funext fun a => Fin.ext ?_)
    match a with
    | ⟨0, _⟩ => show win1_4.index t (0 : Fin 2) * 64 + 1 * q.val = q.val; omega
    | ⟨1, _⟩ => show win1_4.index t (1 : Fin 2) * 64 + 1 * k.val = k.val; omega
  · show V c main_v30 (((cfg1.win 3).blk t).view.emb (ix2 (0 : Fin 1) q)) = V c main_v30 _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega

/-- WHAT POINT t WRITES BACK is block t of the layer of the arrays the region finds. -/
theorem flushed_eq (c : Dev nD) (t : Fin cfg1.N) :
    (dat1 (F := Ideal) V c).flushed 5 t = ((cfg1.win 5).blk t).view.read (Elt Ideal) (rows V c) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x64) zero_offsets, View.ld_unit_zero (S := S1x64) zero_offsets]
  funext j
  exact point_value V c t j

/-- An index of the array is in point t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v31).slice (win1_5.rect t)).set ↔ _
  rw [View.set_slice_whole, Rect.mem_set_unit]
  exact Iff.rfl

/-- Row r of the array lies in the block of point r / 10000: the ten blocks tile the 100000 rows. -/
theorem cover (i : S100000x64.Idx) : ∃ t : Fin cfg1.N, (cfg1.win 5).flush t = true ∧ i ∈ ((cfg1.win 5).blk t).view.set := by
  have hN : cfg1.N = 10 := N_1
  have hi0 : (i 0).val < 100000 := (i 0).isLt
  have hi1 : (i 1).val < 64 := (i 1).isLt
  let t : Fin cfg1.N := ⟨(i 0).val / 10000, by rw [hN]; omega⟩
  have htv : t.val = (i 0).val / 10000 := rfl
  obtain ⟨o0, o1, -⟩ := index_facts t
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE ARRAY THE REGION LEAVES: the specification's second layer of the aggregate, the first layer's output, the two
    weight matrices and the bias as the region finds them. -/
theorem final (V : (c : Dev nD) → (b : Ref sig .tc) → Buf (Elt Ideal) ((c : Thread nD τ).loc b)) (c : Dev nD) :
    (dat1 (F := Ideal) V c).arrAt 5 cfg1.N
      = Cert.Sage.layer2 (V c main_v29) (V c main_v17) (V c main_arg5) (V c main_arg7) (fun q => V c main_v30 (ix2 (0 : Fin 1) q)) :=
  (dat1 V c).arrAt_eq_of_cover 5 (rows V c) (fun t _ => flushed_eq V c t) cover

end Cert.KernelIdeal.Layer2

end
-- ==== Proof.EdgeRegion.lean ====
/-
  The value of the edge-scoring region: what the result array holds once every grid point has run.

  One grid point handles 8192 consecutive edges. Its body lays the source row and the destination row of each edge side
  by side (128 features), multiplies by the transposed first weight matrix, adds the first bias, clamps below at zero,
  multiplies by the transposed second weight matrix and adds the second bias. On the extended reals the changes of
  float format are the identity and a product accumulated into zero is a plain sum, so the body's result at edge `p`
  of the block is exactly `Cert.Sage.edgeRow` of that edge's two rows (`pay_apply`): the transposes only say that the
  weights are read as `W₁ j k` and `W₂ 0 j`, and the concatenation is `Cert.Sage.cat`.
  Block `t` of either endpoint array is rows `8192 t … 8192 t + 8191`, the weights and biases are whole arrays, and
  block `t` of the result is entries `8192 t … 8192 t + 8191`; the 147 blocks tile the 1204224 entries (entry `e` lies
  in block `e / 8192`), so the result array ends at `Cert.Sage.edgeScores` of the arrays the region found (`final`).
-/
import proofs.«424958_j48172353192035_2_alg».proof.Proof.Gen.KernelIdeal.Frame
import proofs.«424958_j48172353192035_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Edge

open Cert.KernelIdeal Cert.KernelIdeal.Gen Idealize.ShloMosaic Idealize.ShloMosaic.ValueIdx
open Idealize.ShloMosaic.TcCoe
open Idealize.ShloMosaic.Pipeline (Dat)

/-! ## The two products at an index -/

/-- The contraction of the [8192,128] × [128,16] product: the left operand's row is the result's row, -/
theorem lhs_hid_0 (i : S8192x16.Idx) (q : dot_S8192x128_S128x16_S8192x16_1_0_0_1_n_n.contr.Idx) :
    (dot_S8192x128_S128x16_S8192x16_1_0_0_1_n_n.lhsIdx i q 0).val = (i 0).val := by
  unfold DotDims.lhsIdx
  rw [dif_neg (show ¬(0 : Fin S8192x128.rank) ∈ dot_S8192x128_S128x16_S8192x16_1_0_0_1_n_n.lhsBatch by decide), dif_pos (show (0 : Fin S8192x128.rank) ∈ dot_S8192x128_S128x16_S8192x16_1_0_0_1_n_n.lhsNonContracting by decide)]
  rfl
/-- its column the summation index, -/
theorem lhs_hid_1 (i : S8192x16.Idx) (q : dot_S8192x128_S128x16_S8192x16_1_0_0_1_n_n.contr.Idx) :
    (dot_S8192x128_S128x16_S8192x16_1_0_0_1_n_n.lhsIdx i q 1).val = (q ⟨0, by decide⟩).val :=
  dot_S8192x128_S128x16_S8192x16_1_0_0_1_n_n.lhsIdx_val_of_single rfl i q
/-- the right operand's row the summation index, -/
theorem rhs_hid_0 (i : S8192x16.Idx) (q : dot_S8192x128_S128x16_S8192x16_1_0_0_1_n_n.contr.Idx) :
    (dot_S8192x128_S128x16_S8192x16_1_0_0_1_n_n.rhsIdx i q 0).val = (q ⟨0, by decide⟩).val :=
  dot_S8192x128_S128x16_S8192x16_1_0_0_1_n_n.rhsIdx_val_of_single rfl i q
/-- and its column the result's column. -/
theorem rhs_hid_1 (i : S8192x16.Idx) (q : dot_S8192x128_S128x16_S8192x16_1_0_0_1_n_n.contr.Idx) :
    (dot_S8192x128_S128x16_S8192x16_1_0_0_1_n_n.rhsIdx i q 1).val = (i 1).val := by
  unfold DotDims.rhsIdx
  rw [dif_neg (show ¬(1 : Fin S128x16.rank) ∈ dot_S8192x128_S128x16_S8192x16_1_0_0_1_n_n.rhsBatch by decide), dif_pos (show (1 : Fin S128x16.rank) ∈ dot_S8192x128_S128x16_S8192x16_1_0_0_1_n_n.rhsNonContracting by decide)]
  rfl

/-- The hidden layer's product into a zero accumulator, at row `p` and unit `j`: the sum over the 128 features. -/
theorem hid_apply (l : FVec Ideal S8192x128 .bf16) (r : FVec Ideal S128x16 .bf16) (p : Fin 8192) (j : Fin 16) :
    matmul (F := Ideal) dot_S8192x128_S128x16_S8192x16_1_0_0_1_n_n none l r (constant (F := Ideal) S8192x16 .f32 0x00000000#32) (ix2 p j)
      = ∑ k : Fin 128, l (ix2 p k) * r (ix2 k j) := by
  show FloatOps.matmul dot_S8192x128_S128x16_S8192x16_1_0_0_1_n_n none l r (constant (F := Ideal) S8192x16 .f32 0x00000000#32) (ix2 p j) = _
  rw [Ideal.matmul_constant_zero_apply, ← Equiv.sum_comp (contrEquiv1 dot_S8192x128_S128x16_S8192x16_1_0_0_1_n_n 128 rfl rfl).symm]
  refine Finset.sum_congr rfl fun k _ => ?_
  have hk := contrEquiv1_symm_val dot_S8192x128_S128x16_S8192x16_1_0_0_1_n_n 128 rfl rfl k
  have el : dot_S8192x128_S128x16_S8192x16_1_0_0_1_n_n.lhsIdx (ix2 p j) ((contrEquiv1 dot_S8192x128_S128x16_S8192x16_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S8192x128_S128x16_S8192x16_1_0_0_1_n_n.rhsIdx (ix2 p j) ((contrEquiv1 dot_S8192x128_S128x16_S8192x16_1_0_0_1_n_n 128 rfl rfl).symm k) = ix2 k j := funext fun a => Fin.ext (by
    match a with
    | ⟨0, _⟩ => exact (rhs_hid_0 _ _).trans hk
    | ⟨1, _⟩ => exact rhs_hid_1 _ _)
  rw [el, er]

/-- The contraction of the [8192,16] × [16,1] product: the left operand's row is the result's row, -/
theorem lhs_out_0 (i : S8192x1.Idx) (q : dot_S8192x16_S16x1_S8192x1_1_0_0_1_n_n.contr.Idx) :
    (dot_S8192x16_S16x1_S8192x1_1_0_0_1_n_n.lhsIdx i q 0).val = (i 0).val := by
  unfold DotDims.lhsIdx
  rw [dif_neg (show ¬(0 : Fin S8192x16.rank) ∈ dot_S8192x16_S16x1_S8192x1_1_0_0_1_n_n.lhsBatch by decide), dif_pos (show (0 : Fin S8192x16.rank) ∈ dot_S8192x16_S16x1_S8192x1_1_0_0_1_n_n.lhsNonContracting by decide)]
  rfl
/-- its column the summation index, -/
theorem lhs_out_1 (i : S8192x1.Idx) (q : dot_S8192x16_S16x1_S8192x1_1_0_0_1_n_n.contr.Idx) :
    (dot_S8192x16_S16x1_S8192x1_1_0_0_1_n_n.lhsIdx i q 1).val = (q ⟨0, by decide⟩).val :=
  dot_S8192x16_S16x1_S8192x1_1_0_0_1_n_n.lhsIdx_val_of_single rfl i q
/-- the right operand's row the summation index, -/
theorem rhs_out_0 (i : S8192x1.Idx) (q : dot_S8192x16_S16x1_S8192x1_1_0_0_1_n_n.contr.Idx) :
    (dot_S8192x16_S16x1_S8192x1_1_0_0_1_n_n.rhsIdx i q 0).val = (q ⟨0, by decide⟩).val :=
  dot_S8192x16_S16x1_S8192x1_1_0_0_1_n_n.rhsIdx_val_of_single rfl i q
/-- and its column the result's column. -/
theorem rhs_out_1 (i : S8192x1.Idx) (q : dot_S8192x16_S16x1_S8192x1_1_0_0_1_n_n.contr.Idx) :
    (dot_S8192x16_S16x1_S8192x1_1_0_0_1_n_n.rhsIdx i q 1).val = (i 1).val := by
  unfold DotDims.rhsIdx
  rw [dif_neg (show ¬(1 : Fin S16x1.rank) ∈ dot_S8192x16_S16x1_S8192x1_1_0_0_1_n_n.rhsBatch by decide), dif_pos (show (1 : Fin S16x1.rank) ∈ dot_S8192x16_S16x1_S8192x1_1_0_0_1_n_n.rhsNonContracting by decide)]
  rfl

/-- The output layer's product into a zero accumulator, at row `p`: the sum over the 16 hidden units. -/
theorem out_apply (l : FVec Ideal S8192x16 .bf16) (r : FVec Ideal S16x1 .bf16) (p : Fin 8192) (u : Fin 1) :
    matmul (F := Ideal) dot_S8192x16_S16x1_S8192x1_1_0_0_1_n_n none l r (constant (F := Ideal) S8192x1 .f32 0x00000000#32) (ix2 p u)
      = ∑ j : Fin 16, l (ix2 p j) * r (ix2 j u) := by
  show FloatOps.matmul dot_S8192x16_S16x1_S8192x1_1_0_0_1_n_n none l r (constant (F := Ideal) S8192x1 .f32 0x00000000#32) (ix2 p u) = _
  rw [Ideal.matmul_constant_zero_apply, ← Equiv.sum_comp (contrEquiv1 dot_S8192x16_S16x1_S8192x1_1_0_0_1_n_n 16 rfl rfl).symm]
  refine Finset.sum_congr rfl fun k _ => ?_
  have hk := contrEquiv1_symm_val dot_S8192x16_S16x1_S8192x1_1_0_0_1_n_n 16 rfl rfl k
  have el : dot_S8192x16_S16x1_S8192x1_1_0_0_1_n_n.lhsIdx (ix2 p u) ((contrEquiv1 dot_S8192x16_S16x1_S8192x1_1_0_0_1_n_n 16 rfl rfl).symm k) = ix2 p k := funext fun a => Fin.ext (by
    match a with
    | ⟨0, _⟩ => exact lhs_out_0 _ _
    | ⟨1, _⟩ => exact (lhs_out_1 _ _).trans hk)
  have er : dot_S8192x16_S16x1_S8192x1_1_0_0_1_n_n.rhsIdx (ix2 p u) ((contrEquiv1 dot_S8192x16_S16x1_S8192x1_1_0_0_1_n_n 16 rfl rfl).symm k) = ix2 k u := funext fun a => Fin.ext (by
    match a with
    | ⟨0, _⟩ => exact (rhs_out_0 _ _).trans hk
    | ⟨1, _⟩ => exact rhs_out_1 _ _)
  rw [el, er]

/-! ## The concatenation at an index -/

/-- Two [8192,64] blocks joined along the feature axis, read at row `p` and feature `k`: the first block's row
    for `k < 64`, the second's at `k - 64` otherwise. -/
theorem cat_apply (a b : FVec Ideal S8192x64 .bf16) (p : Fin 8192) (k : Fin 128) :
    concatenate S8192x128 1 [⟨S8192x64, a⟩, ⟨S8192x64, b⟩] concatenates_S8192x64_S8192x64_S8192x128_d1 (ix2 p k)
      = Cert.Sage.cat (fun k' => a (ix2 p k')) (fun k' => b (ix2 p k')) k := by
  unfold Cert.Sage.cat
  split
  · next hk =>
    exact concatenate_pair_apply_left 1 a b concatenates_S8192x64_S8192x64_S8192x128_d1 (ix2 p k) rfl (ix2 p ⟨k.val, hk⟩)
      (fun c => match c with | ⟨0, _⟩ => rfl | ⟨1, _⟩ => rfl)
  · next hk =>
    exact concatenate_pair_apply_right 1 a b concatenates_S8192x64_S8192x64_S8192x128_d1 (ix2 p k) rfl rfl
      (ix2 p ⟨k.val - 64, by have := k.isLt; omega⟩)
      (fun c hc => match c, hc with | ⟨0, _⟩, _ => rfl | ⟨1, _⟩, hc => absurd rfl hc)
      (by show (k.val - 64) + 64 = k.val; omega)

/-! ## The body's result at one edge of the block -/

/-- A [8192,1] column cast to a vector of 8192 entries reads, at `p`, the column's entry `(p, 0)`. -/
theorem col_cast_apply (x : FVec Ideal S8192x1 .f32) (p : Fin 8192) :
    shapeCast S8192 x shapeCasts_S8192x1_S8192 (ix1 p) = x (ix2 p (0 : Fin 1)) :=
  shapeCast_apply x shapeCasts_S8192x1_S8192 (ix1 p) (ix2 p (0 : Fin 1)) (by
    rw [Shape.rowMajor_val_two, Shape.rowMajor_val_one]
    show p.val * 1 + 0 = p.val
    omega)

/-- THE BODY AT ONE EDGE: entry `p` of what the body stores is the edge score of the `p`-th source row and the `p`-th
    destination row of the two loaded blocks, under the loaded weights and biases. -/
theorem pay_apply (x0 x1 : Vec Ideal S8192x64 .f32) (x2 : Vec Ideal S16x128 .f32) (x3 : Vec Ideal S1x16 .f32) (x4 : Vec Ideal S1x16 .f32) (x5 : Vec Ideal S1x1 .f32) (p : Fin 8192) :
    k2_pay1 (F := Ideal) x0 x1 x2 x3 x4 x5 (ix1 p)
      = Cert.Sage.edgeRow (fun k => x0 (ix2 p k)) (fun k => x1 (ix2 p k)) x2 (fun j => x3 (ix2 (0 : Fin 1) j)) x4 (x5 (ix2 (0 : Fin 1) (0 : Fin 1))) := by
  unfold k2_pay1 Cert.Sage.edgeRow
  dsimp only
  refine (col_cast_apply _ p).trans ?_
  refine (addf_apply _ _ _).trans ?_
  refine congrArg₂ (· + ·) ?_ ?_
  · refine (out_apply _ _ p 0).trans ?_
    refine Finset.sum_congr rfl fun j _ => ?_
    refine congrArg₂ (· * ·) ?_ ?_
    · refine (truncf_apply (ψ := .bf16) (φ := .f32) _ bitsLt_bf16_f32 _).trans ?_
      refine (maximumf_apply _ _ _).trans ?_
      refine congrArg₂ max ?_ ?_
      · refine (addf_apply _ _ _).trans ?_
        refine congrArg₂ (· + ·) ?_ ?_
        · refine (hid_apply _ _ p j).trans ?_
          refine Finset.sum_congr rfl fun k _ => ?_
          refine congrArg₂ (· * ·) ?_ ?_
          · refine (cat_apply _ _ p k).trans ?_
            rw [shapeCast_self, shapeCast_self]
            rfl
          · exact transpose_ix2_apply _ _ k j
        · refine (broadcastTo_1b_ab_apply _ _ p j).trans ?_
          rw [shapeCast_self]
      · show Ideal.ofBits .f32 0x00000000#32 = 0
        exact Ideal.ofBits_zero_f32
    · exact transpose_ix2_apply _ _ j 0
  · refine (broadcastTo_1b_ab_apply _ _ p 0).trans ?_
    rw [shapeCast_self]

/-! ## From the blocks to the array -/

section Array

variable (V : (c : Dev nD) → (b : Ref sig .tc) → Buf (Elt Ideal) ((c : Thread nD τ).loc b))

theorem zero_off1 : (![0] : Fin 1 → Nat) = fun _ => 0 := funext fun a => by fin_cases a; rfl
theorem zero_off2 : (![0, 0] : Fin 2 → Nat) = fun _ => 0 := funext fun a => by fin_cases a <;> rfl

/-- The block indices at grid point `t`, decided over the 147 points: the two endpoint arrays and the result move
    with `t` along the edge axis; the weights and biases stay at block zero. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = t.val :=
  (by decide +kernel : ∀ t : Fin grid2.N, _)

/-- ONE POINT, over plain vectors: if rows `p` of the two loaded endpoint blocks are rows `r` of the two endpoint
    arrays and the loaded weights and biases are the arrays', entry `p` of the body's result is the score of edge `r`. -/
theorem point_eq (x0 x1 : Vec Ideal S8192x64 .f32) (x2 : Vec Ideal S16x128 .f32) (x3 : Vec Ideal S1x16 .f32) (x4 : Vec Ideal S1x16 .f32) (x5 : Vec Ideal S1x1 .f32)
    (A0 A1 : FVec Ideal S1204224x64 .f32) (W1 : FVec Ideal S16x128 .f32) (B1 : FVec Ideal S1x16 .f32) (W2 : FVec Ideal S1x16 .f32) (B2 : FVec Ideal S1x1 .f32)
    (y : S8192.Idx) (e : S1204224.Idx) (p : Fin 8192) (r : Fin 1204224) (hy : y = ix1 p) (he : e = ix1 r)
    (h0 : ∀ k : Fin 64, x0 (ix2 p k) = A0 (ix2 r k)) (h1 : ∀ k : Fin 64, x1 (ix2 p k) = A1 (ix2 r k))
    (h2 : x2 = W1) (h3 : x3 = B1) (h4 : x4 = W2) (h5 : x5 = B2) :
    k2_pay1 (F := Ideal) x0 x1 x2 x3 x4 x5 y
      = Cert.Sage.edgeScores A0 A1 W1 (fun j => B1 (ix2 (0 : Fin 1) j)) W2 (B2 (ix2 (0 : Fin 1) (0 : Fin 1))) e := by
  subst hy he h2 h3 h4 h5
  rw [pay_apply]
  unfold Cert.Sage.edgeScores
  show Cert.Sage.edgeRow _ _ _ _ _ _ = Cert.Sage.edgeRow (fun k => A0 (ix2 r k)) (fun k => A1 (ix2 r k)) _ _ _ _
  rw [funext h0, funext h1]

/-- WHAT POINT `t` WRITES BACK is block `t` of the edge scores of the arrays as the region finds them. -/
theorem flushed_eq (c : Dev nD) (t : Fin cfg2.N) :
    (dat2 (F := Ideal) V c).flushed 6 t = ((cfg2.win 6).blk t).view.read (Elt Ideal)
      (Cert.Sage.edgeScores (V c main_v34) (V c main_v35) (V c main_arg8) (fun j => V c main_v36 (ix2 (0 : Fin 1) j)) (V c main_arg10) (V c main_v37 (ix2 (0 : Fin 1) (0 : Fin 1)))) := by
  show (cfg2.win 6).cut (grid2.coords t) ((dat2 (F := Ideal) V c).after 6 t) = _
  rw [after2_6]
  unfold out2_6
  rw [View.canon_unit_zero zero_off1]
  simp only [View.ld_unit_zero (S := S8192x64) zero_off2, View.ld_unit_zero (S := S16x128) zero_off2, View.ld_unit_zero (S := S1x16) zero_off2, View.ld_unit_zero (S := S1x1) zero_off2]
  obtain ⟨e00, e01, e10, e11, e20, e21, e30, e31, e40, e41, e50, e51, e6⟩ := block_index t
  have hN : t.val < 147 := lt_of_lt_of_eq t.isLt (show cfg2.N = 147 from N_2)
  funext y
  have hyl : (y 0).val < 8192 := (y 0).isLt
  show k2_pay1 (F := Ideal) (iblk2 V c 0 t) (iblk2 V c 1 t) (iblk2 V c 2 t) (iblk2 V c 3 t) (iblk2 V c 4 t) (iblk2 V c 5 t) y
    = Cert.Sage.edgeScores (V c main_v34) (V c main_v35) (V c main_arg8) (fun j => V c main_v36 (ix2 (0 : Fin 1) j)) (V c main_arg10) (V c main_v37 (ix2 (0 : Fin 1) (0 : Fin 1))) (((cfg2.win 6).blk t).view.emb y)
  refine point_eq (iblk2 V c 0 t) (iblk2 V c 1 t) (iblk2 V c 2 t) (iblk2 V c 3 t) (iblk2 V c 4 t) (iblk2 V c 5 t)
    (V c main_v34) (V c main_v35) (V c main_arg8) (V c main_v36) (V c main_arg10) (V c main_v37)
    y (((cfg2.win 6).blk t).view.emb y) ⟨(y 0).val, hyl⟩ ⟨t.val * 8192 + (y 0).val, by omega⟩ ?_ ?_ ?_ ?_ ?_ ?_ ?_ ?_
  · funext a; match a with | ⟨0, _⟩ => rfl
  · funext a; apply Fin.ext
    match a with
    | ⟨0, _⟩ => show win2_6.index t (0 : Fin 1) * 8192 + 1 * (y 0).val = t.val * 8192 + (y 0).val; rw [e6]; omega
  · intro k
    show V c main_v34 (((cfg2.win 0).blk t).view.emb (ix2 (⟨(y 0).val, hyl⟩ : Fin 8192) k)) = V c main_v34 _
    refine congrArg (V c main_v34) (funext fun a => Fin.ext ?_)
    match a with
    | ⟨0, _⟩ => show win2_0.index t (0 : Fin 2) * 8192 + 1 * (y 0).val = t.val * 8192 + (y 0).val; rw [e00]; omega
    | ⟨1, _⟩ => show win2_0.index t (1 : Fin 2) * 64 + 1 * k.val = k.val; rw [e01]; omega
  · intro k
    show V c main_v35 (((cfg2.win 1).blk t).view.emb (ix2 (⟨(y 0).val, hyl⟩ : Fin 8192) k)) = V c main_v35 _
    refine congrArg (V c main_v35) (funext fun a => Fin.ext ?_)
    match a with
    | ⟨0, _⟩ => show win2_1.index t (0 : Fin 2) * 8192 + 1 * (y 0).val = t.val * 8192 + (y 0).val; rw [e10]; omega
    | ⟨1, _⟩ => show win2_1.index t (1 : Fin 2) * 64 + 1 * k.val = k.val; rw [e11]; omega
  · funext q
    show V c main_arg8 (((cfg2.win 2).blk t).view.emb q) = V c main_arg8 q
    refine congrArg (V c main_arg8) (funext fun a => Fin.ext ?_)
    match a with
    | ⟨0, _⟩ => show win2_2.index t (0 : Fin 2) * 16 + 1 * (q 0).val = (q 0).val; rw [e20]; omega
    | ⟨1, _⟩ => show win2_2.index t (1 : Fin 2) * 128 + 1 * (q 1).val = (q 1).val; rw [e21]; omega
  · funext q
    show V c main_v36 (((cfg2.win 3).blk t).view.emb q) = V c main_v36 q
    refine congrArg (V c main_v36) (funext fun a => Fin.ext ?_)
    match a with
    | ⟨0, _⟩ => show win2_3.index t (0 : Fin 2) * 1 + 1 * (q 0).val = (q 0).val; rw [e30]; omega
    | ⟨1, _⟩ => show win2_3.index t (1 : Fin 2) * 16 + 1 * (q 1).val = (q 1).val; rw [e31]; omega
  · funext q
    show V c main_arg10 (((cfg2.win 4).blk t).view.emb q) = V c main_arg10 q
    refine congrArg (V c main_arg10) (funext fun a => Fin.ext ?_)
    match a with
    | ⟨0, _⟩ => show win2_4.index t (0 : Fin 2) * 1 + 1 * (q 0).val = (q 0).val; rw [e40]; omega
    | ⟨1, _⟩ => show win2_4.index t (1 : Fin 2) * 16 + 1 * (q 1).val = (q 1).val; rw [e41]; omega
  · funext q
    show V c main_v37 (((cfg2.win 5).blk t).view.emb q) = V c main_v37 q
    refine congrArg (V c main_v37) (funext fun a => Fin.ext ?_)
    match a with
    | ⟨0, _⟩ => show win2_5.index t (0 : Fin 2) * 1 + 1 * (q 0).val = (q 0).val; rw [e50]; omega
    | ⟨1, _⟩ => show win2_5.index t (1 : Fin 2) * 1 + 1 * (q 1).val = (q 1).val; rw [e51]; omega

/-- An entry of the result array is in point `t`'s block iff it lies in that block's range of 8192 entries. -/
theorem mem_blk (t : Fin cfg2.N) (i : S1204224.Idx) :
    i ∈ ((cfg2.win 6).blk t).view.set ↔ ∀ a : Fin 1, win2_6.index t a * S8192.size a ≤ (i a).val ∧ (i a).val < win2_6.index t a * S8192.size a + S8192.size a := by
  show i ∈ ((View.whole main_v38).slice (win2_6.rect t)).set ↔ _
  rw [View.set_slice_whole, Rect.mem_set_unit]
  exact Iff.rfl

/-- Every entry of the result array is in some written-back block: entry `e` in block `e / 8192` (147 · 8192 = 1204224). -/
theorem covered (i : S1204224.Idx) :
    ∃ t : Fin cfg2.N, (cfg2.win 6).flush t = true ∧ i ∈ ((cfg2.win 6).blk t).view.set := by
  have hi : (i 0).val < 1204224 := (i 0).isLt
  have hN : cfg2.N = 147 := N_2
  refine ⟨⟨(i 0).val / 8192, by rw [hN]; omega⟩, flush2_6 _, ?_⟩
  rw [mem_blk]
  intro a
  obtain ⟨-, -, -, -, -, -, -, -, -, -, -, -, e6⟩ := block_index ⟨(i 0).val / 8192, by rw [hN]; omega⟩
  match a with
  | ⟨0, _⟩ =>
    show win2_6.index ⟨(i 0).val / 8192, _⟩ (0 : Fin 1) * 8192 ≤ (i 0).val ∧ (i 0).val < win2_6.index ⟨(i 0).val / 8192, _⟩ (0 : Fin 1) * 8192 + 8192
    rw [e6]
    show (i 0).val / 8192 * 8192 ≤ (i 0).val ∧ (i 0).val < (i 0).val / 8192 * 8192 + 8192
    omega

/-- THE RESULT ARRAY after the region: the edge scores of the arrays as the region finds them. -/
theorem final (c : Dev nD) :
    (dat2 (F := Ideal) V c).arrAt 6 cfg2.N
      = Cert.Sage.edgeScores (V c main_v34) (V c main_v35) (V c main_arg8) (fun j => V c main_v36 (ix2 (0 : Fin 1) j)) (V c main_arg10) (V c main_v37 (ix2 (0 : Fin 1) (0 : Fin 1))) :=
  (dat2 (F := Ideal) V c).arrAt_eq_of_cover 6 _ (fun t _ => flushed_eq V c t) covered

end Array

end Cert.KernelIdeal.Edge

end
-- ==== Proof.Chain.lean ====
/-
  The kernel program's RESULT as a function of its arguments: the contents of the result buffer at the last segment
  boundary, followed back through @main — host stretches and the three regions — to the launch memory, and identified
  stage by stage with the reference program's stages (the generated read-back of the reference names each of its
  operations' values `val_main_vN` as a function of @main's arguments).

  The correspondence, for node ids in range (the precondition):
    the two id vectors (rows of `edge_index`)                 = the reference's  v1, v3
    layer 1: rows of x gathered at the sources               = v10   (the kernel's fill-mode take is the plain gather there)
             their mean over incoming edges                  = v21   (the same scatter-adds and quotient on both sides)
             region 0:  max(agg·Wlᵀ + b + x·Wrᵀ, 0)          = v30   (both are the row formula `Cert.Sage.layer1`)
    layer 2: gather = v37, mean = v48, region 1              = v56   (`Cert.Sage.layer2`)
    the endpoint rows of layer 2's output                    = v63, v70
    region 2 on the rows padded to a multiple of 8192, then the first 1200000 scores
                                                             = v83   (`Cert.Sage.edgeScores`: a padded row is never read
                                                                      below edge 1200000, and the slice drops the rest)
  A buffer that a stretch or a region does not write keeps its contents: `chase` walks it back.
-/
import proofs.«424958_j48172353192035_2_alg».proof.Proof.Gen.KernelIdeal.Frame
import proofs.«424958_j48172353192035_2_alg».proof.Proof.Gen.ReferenceIdeal.Read
import proofs.«424958_j48172353192035_2_alg».proof.Proof.Spec
import proofs.«424958_j48172353192035_2_alg».proof.Proof.RefStages
import proofs.«424958_j48172353192035_2_alg».proof.Proof.Take
import proofs.«424958_j48172353192035_2_alg».proof.Proof.HostStretches
import proofs.«424958_j48172353192035_2_alg».proof.Proof.Layer1Region
import proofs.«424958_j48172353192035_2_alg».proof.Proof.Layer2Region
import proofs.«424958_j48172353192035_2_alg».proof.Proof.EdgeRegion
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.StableHlo Idealize.ShloMosaic.ValueIdx

namespace Cert.KernelIdeal.Chain
open Cert.KernelIdeal Cert.KernelIdeal.Gen Cert.ReferenceIdeal.Read
variable (m : (ℓ : Loc nD τ sig) → Buf (Elt Ideal) ℓ) (ρ : Dev nD → PrngReg) (c : Dev nD)

/-- A buffer that region 0 does not own is, when the region is left, what it was when the region was entered. -/
theorem W4_keep (b : Ref sig .tc) (hb : ∀ w, Pipeline.arrRef spec0 w ≠ b) :
    W4 m ρ c (no_index (Proc.devRef .tc b)) = W3 m ρ c (Proc.devRef .tc b) := W4_of_ne m ρ c b hb
/-- The same for region 1. -/
theorem W7_keep (b : Ref sig .tc) (hb : ∀ w, Pipeline.arrRef spec1 w ≠ b) :
    W7 m ρ c (no_index (Proc.devRef .tc b)) = W6 m ρ c (Proc.devRef .tc b) := W7_of_ne m ρ c b hb

/-- Walks a buffer's contents back through the host stretches and regions that do not write it. -/
macro "chase" : tactic => `(tactic| simp (disch := decide) only [W1, W2, W3, W5, W6, W8, W9, W10, W11, W12, W13, W14, W16,
  hostOps0, hostOps0_1, hostOps0_2, hostOps1, hostOps1_1, hostOps2, hostOps2_1, hostOps2_2, hostOps2_3, hostOps2_4, hostOps2_5, hostOps2_6, hostOps3,
  after_cons, after_nil, nullary_result_ne', unary_result_ne', binary_result_ne', ternary_result_ne', reshape_result_ne', W4_keep, W7_keep])

/-- Argument `k` of @main as launched. -/
abbrev a (k : Ref sig .tc) : Buf (Elt Ideal) ((c : Thread nD τ).loc k) := m ((c : Thread nD τ).loc k)

/-! ## The wrapped start indices are the reference's -/

theorem wrap9 (x1) : Take.wrapIdx (val_main_v1 (F := Ideal) x1) = val_main_v9 (F := Ideal) x1 := by
  unfold Take.wrapIdx val_main_v9 val_main_v8 val_main_v5 val_main_v7 val_main_v4 val_main_v6 val_main_c val_main_c_0; rfl
theorem wrap36 (x1) : Take.wrapIdx (val_main_v1 (F := Ideal) x1) = val_main_v36 (F := Ideal) x1 := by
  unfold Take.wrapIdx val_main_v36 val_main_v35 val_main_v32 val_main_v34 val_main_v31 val_main_v33 val_main_c_4 val_main_c_5; rfl
theorem wrap62 (x1) : Take.wrapIdx (val_main_v1 (F := Ideal) x1) = val_main_v62 (F := Ideal) x1 := by
  unfold Take.wrapIdx val_main_v62 val_main_v61 val_main_v58 val_main_v60 val_main_v57 val_main_v59 val_main_c_10 val_main_c_11; rfl
theorem wrap69 (x1) : Take.wrapIdx (val_main_v3 (F := Ideal) x1) = val_main_v69 (F := Ideal) x1 := by
  unfold Take.wrapIdx val_main_v69 val_main_v68 val_main_v65 val_main_v67 val_main_v64 val_main_v66 val_main_c_12 val_main_c_13; rfl

/-! ## The two id vectors -/

theorem v1_1 : W1 m ρ c (Proc.devRef .tc main_v1) = val_main_v1 (F := Ideal) (a m c main_arg1) := Host.ids_src (W0 m ρ c)
theorem v3_1 : W1 m ρ c (Proc.devRef .tc main_v3) = val_main_v3 (F := Ideal) (a m c main_arg1) := Host.ids_dst (W0 m ρ c)

variable (hs : Take.InRange (val_main_v1 (F := Ideal) (a m c main_arg1))) (hd : Take.InRange (val_main_v3 (F := Ideal) (a m c main_arg1)))
include hs hd

/-! ## Layer 1 -/

theorem v4_2 : W2 m ρ c (Proc.devRef .tc main_v4) = val_main_v10 (F := Ideal) (a m c main_arg0) (a m c main_arg1) := by
  have h := Take.take_v4 (W1 m ρ c) (by rw [v1_1]; exact hs)
  rw [v1_1, show W1 m ρ c (Proc.devRef .tc main_arg0) = a m c main_arg0 from by chase, wrap9] at h
  exact h
theorem v15_3 : W3 m ρ c (Proc.devRef .tc main_v15) = val_main_v21 (F := Ideal) (a m c main_arg0) (a m c main_arg1) :=
  Host.agg1 (W2 m ρ c) _ _ (v4_2 m ρ c hs hd) ((by chase : W2 m ρ c (Proc.devRef .tc main_v3) = W1 m ρ c (Proc.devRef .tc main_v3)).trans (v3_1 m ρ c))
theorem v16_3 (q : Fin 64) : W3 m ρ c (Proc.devRef .tc main_v16) (ix2 (0 : Fin 1) q) = a m c main_arg3 (ix1 q) :=
  (Host.bias1 (W2 m ρ c) q).trans (congrFun (by chase : W2 m ρ c (Proc.devRef .tc main_arg3) = a m c main_arg3) _)
theorem v17_4 : W4 m ρ c (Proc.devRef .tc main_v17)
    = val_main_v30 (F := Ideal) (a m c main_arg0) (a m c main_arg1) (a m c main_arg2) (a m c main_arg3) (a m c main_arg4) := by
  refine ((W4_arr m ρ c 5).trans (Layer1.final (V3 m ρ) c)).trans ?_
  show Cert.Sage.layer1 (W3 m ρ c (Proc.devRef .tc main_v15)) (W3 m ρ c (Proc.devRef .tc main_arg0)) (W3 m ρ c (Proc.devRef .tc main_arg2))
    (W3 m ρ c (Proc.devRef .tc main_arg4)) (fun q => W3 m ρ c (Proc.devRef .tc main_v16) (ix2 (0 : Fin 1) q)) = _
  rw [v15_3 m ρ c hs hd, show W3 m ρ c (Proc.devRef .tc main_arg0) = a m c main_arg0 from by chase,
    show W3 m ρ c (Proc.devRef .tc main_arg2) = a m c main_arg2 from by chase,
    show W3 m ρ c (Proc.devRef .tc main_arg4) = a m c main_arg4 from by chase,
    show (fun q => W3 m ρ c (Proc.devRef .tc main_v16) (ix2 (0 : Fin 1) q)) = fun q => a m c main_arg3 (ix1 q) from funext (v16_3 m ρ c hs hd)]
  exact (Cert.ReferenceIdeal.Stages.layer1_eq _ _ _ _ _).symm

/-! ## Layer 2 -/

theorem v18_5 : W5 m ρ c (Proc.devRef .tc main_v18)
    = val_main_v37 (F := Ideal) (a m c main_arg0) (a m c main_arg1) (a m c main_arg2) (a m c main_arg3) (a m c main_arg4) := by
  have h1 : W4 m ρ c (Proc.devRef .tc main_v1) = val_main_v1 (F := Ideal) (a m c main_arg1) :=
    (by chase : W4 m ρ c (Proc.devRef .tc main_v1) = W1 m ρ c (Proc.devRef .tc main_v1)).trans (v1_1 m ρ c)
  have h := Take.take_v18 (W4 m ρ c) (by rw [h1]; exact hs)
  rw [h1, v17_4 m ρ c hs hd, wrap36] at h
  exact h
theorem v29_6 : W6 m ρ c (Proc.devRef .tc main_v29)
    = val_main_v48 (F := Ideal) (a m c main_arg0) (a m c main_arg1) (a m c main_arg2) (a m c main_arg3) (a m c main_arg4) :=
  Host.agg2 (W5 m ρ c) _ _ _ _ _ (v18_5 m ρ c hs hd) ((by chase : W5 m ρ c (Proc.devRef .tc main_v3) = W1 m ρ c (Proc.devRef .tc main_v3)).trans (v3_1 m ρ c))
theorem v30_6 (q : Fin 64) : W6 m ρ c (Proc.devRef .tc main_v30) (ix2 (0 : Fin 1) q) = a m c main_arg6 (ix1 q) :=
  (Host.bias2 (W5 m ρ c) q).trans (congrFun (by chase : W5 m ρ c (Proc.devRef .tc main_arg6) = a m c main_arg6) _)
theorem v31_7 : W7 m ρ c (Proc.devRef .tc main_v31)
    = val_main_v56 (F := Ideal) (a m c main_arg0) (a m c main_arg1) (a m c main_arg2) (a m c main_arg3) (a m c main_arg4) (a m c main_arg5) (a m c main_arg6) (a m c main_arg7) := by
  refine ((W7_arr m ρ c 5).trans (Layer2.final (V6 m ρ) c)).trans ?_
  show Cert.Sage.layer2 (W6 m ρ c (Proc.devRef .tc main_v29)) (W6 m ρ c (Proc.devRef .tc main_v17)) (W6 m ρ c (Proc.devRef .tc main_arg5))
    (W6 m ρ c (Proc.devRef .tc main_arg7)) (fun q => W6 m ρ c (Proc.devRef .tc main_v30) (ix2 (0 : Fin 1) q)) = _
  rw [v29_6 m ρ c hs hd,
    show W6 m ρ c (Proc.devRef .tc main_v17) = W4 m ρ c (Proc.devRef .tc main_v17) from by chase, v17_4 m ρ c hs hd,
    show W6 m ρ c (Proc.devRef .tc main_arg5) = a m c main_arg5 from by chase,
    show W6 m ρ c (Proc.devRef .tc main_arg7) = a m c main_arg7 from by chase,
    show (fun q => W6 m ρ c (Proc.devRef .tc main_v30) (ix2 (0 : Fin 1) q)) = fun q => a m c main_arg6 (ix1 q) from funext (v30_6 m ρ c hs hd)]
  exact (Cert.ReferenceIdeal.Stages.layer2_eq _ _ _ _ _ _ _ _).symm

/-! ## The endpoint rows -/

theorem v32_8 : W8 m ρ c (Proc.devRef .tc main_v32)
    = val_main_v63 (F := Ideal) (a m c main_arg0) (a m c main_arg1) (a m c main_arg2) (a m c main_arg3) (a m c main_arg4) (a m c main_arg5) (a m c main_arg6) (a m c main_arg7) := by
  have h1 : W7 m ρ c (Proc.devRef .tc main_v1) = val_main_v1 (F := Ideal) (a m c main_arg1) :=
    (by chase : W7 m ρ c (Proc.devRef .tc main_v1) = W1 m ρ c (Proc.devRef .tc main_v1)).trans (v1_1 m ρ c)
  have h := Take.take_v32 (W7 m ρ c) (by rw [h1]; exact hs)
  rw [h1, v31_7 m ρ c hs hd, wrap62] at h
  exact h
theorem v33_9 : W9 m ρ c (Proc.devRef .tc main_v33)
    = val_main_v70 (F := Ideal) (a m c main_arg0) (a m c main_arg1) (a m c main_arg2) (a m c main_arg3) (a m c main_arg4) (a m c main_arg5) (a m c main_arg6) (a m c main_arg7) := by
  have h3 : W8 m ρ c (Proc.devRef .tc main_v3) = val_main_v3 (F := Ideal) (a m c main_arg1) :=
    (by chase : W8 m ρ c (Proc.devRef .tc main_v3) = W1 m ρ c (Proc.devRef .tc main_v3)).trans (v3_1 m ρ c)
  have h := Take.take_v33 (W8 m ρ c) (by rw [h3]; exact hd)
  rw [h3, show W8 m ρ c (Proc.devRef .tc main_v31) = W7 m ρ c (Proc.devRef .tc main_v31) from by chase, v31_7 m ρ c hs hd, wrap69] at h
  exact h

/-! ## The padded endpoint rows at an edge, and the scorer's small operands -/

theorem v34_14 (e : Fin 1204224) (he : e.val < 1200000) (k : Fin 64) : W14 m ρ c (Proc.devRef .tc main_v34) (ix2 e k)
    = val_main_v63 (F := Ideal) (a m c main_arg0) (a m c main_arg1) (a m c main_arg2) (a m c main_arg3) (a m c main_arg4) (a m c main_arg5) (a m c main_arg6) (a m c main_arg7) (ix2 (⟨e.val, he⟩ : Fin 1200000) k) := by
  rw [show W14 m ρ c (Proc.devRef .tc main_v34) = W11 m ρ c (Proc.devRef .tc main_v34) from by chase]
  refine (Host.pad_src (W10 m ρ c) e he k).trans ?_
  rw [show W10 m ρ c (Proc.devRef .tc main_v32) = W8 m ρ c (Proc.devRef .tc main_v32) from by chase, v32_8 m ρ c hs hd]
theorem v35_14 (e : Fin 1204224) (he : e.val < 1200000) (k : Fin 64) : W14 m ρ c (Proc.devRef .tc main_v35) (ix2 e k)
    = val_main_v70 (F := Ideal) (a m c main_arg0) (a m c main_arg1) (a m c main_arg2) (a m c main_arg3) (a m c main_arg4) (a m c main_arg5) (a m c main_arg6) (a m c main_arg7) (ix2 (⟨e.val, he⟩ : Fin 1200000) k) := by
  rw [show W14 m ρ c (Proc.devRef .tc main_v35) = W13 m ρ c (Proc.devRef .tc main_v35) from by chase]
  refine (Host.pad_dst (W12 m ρ c) e he k).trans ?_
  rw [show W12 m ρ c (Proc.devRef .tc main_v33) = W9 m ρ c (Proc.devRef .tc main_v33) from by chase, v33_9 m ρ c hs hd]
theorem v36_14 (j : Fin 16) : W14 m ρ c (Proc.devRef .tc main_v36) (ix2 (0 : Fin 1) j) = a m c main_arg9 (ix1 j) :=
  (Host.bias3 (W13 m ρ c) j).trans (congrFun (by chase : W13 m ρ c (Proc.devRef .tc main_arg9) = a m c main_arg9) _)
theorem v37_14 : W14 m ρ c (Proc.devRef .tc main_v37) (ix2 (0 : Fin 1) (0 : Fin 1)) = a m c main_arg11 (ix1 (0 : Fin 1)) :=
  (Host.bias4 (W13 m ρ c)).trans (congrFun (by chase : W13 m ρ c (Proc.devRef .tc main_arg11) = a m c main_arg11) _)

/-! ## The result -/

/-- The kernel program's result array, the fold of its host stretches and regions from the launch memory, is the
    reference's last stage of the launch arguments. -/
theorem result : W16 m ρ c (Proc.devRef .tc main_v39)
    = val_main_v83 (F := Ideal) (a m c main_arg0) (a m c main_arg1) (a m c main_arg2) (a m c main_arg3) (a m c main_arg4) (a m c main_arg5) (a m c main_arg6) (a m c main_arg7) (a m c main_arg8) (a m c main_arg9) (a m c main_arg10) (a m c main_arg11) := by
  rw [Cert.ReferenceIdeal.Stages.scores_eq]
  have h38 : W15 m ρ c (Proc.devRef .tc main_v38)
      = Cert.Sage.edgeScores (W14 m ρ c (Proc.devRef .tc main_v34)) (W14 m ρ c (Proc.devRef .tc main_v35)) (W14 m ρ c (Proc.devRef .tc main_arg8))
          (fun j => W14 m ρ c (Proc.devRef .tc main_v36) (ix2 (0 : Fin 1) j)) (W14 m ρ c (Proc.devRef .tc main_arg10))
          (W14 m ρ c (Proc.devRef .tc main_v37) (ix2 (0 : Fin 1) (0 : Fin 1))) :=
    (W15_arr m ρ c 6).trans (Edge.final (V14 m ρ) c)
  funext i
  obtain ⟨e, rfl⟩ : ∃ e : Fin 1200000, i = ix1 e := ⟨i 0, eq_ix1 i⟩
  refine (Host.slice_out (W15 m ρ c) e).trans ?_
  rw [h38]
  have he : e.val < 1200000 := e.isLt
  show Cert.Sage.edgeRow (fun k => W14 m ρ c (Proc.devRef .tc main_v34) (ix2 (⟨e.val, by omega⟩ : Fin 1204224) k))
      (fun k => W14 m ρ c (Proc.devRef .tc main_v35) (ix2 (⟨e.val, by omega⟩ : Fin 1204224) k)) (W14 m ρ c (Proc.devRef .tc main_arg8))
      (fun j => W14 m ρ c (Proc.devRef .tc main_v36) (ix2 (0 : Fin 1) j)) (W14 m ρ c (Proc.devRef .tc main_arg10))
      (W14 m ρ c (Proc.devRef .tc main_v37) (ix2 (0 : Fin 1) (0 : Fin 1)))
    = Cert.Sage.edgeRow (fun k => val_main_v63 (F := Ideal) (a m c main_arg0) (a m c main_arg1) (a m c main_arg2) (a m c main_arg3) (a m c main_arg4) (a m c main_arg5) (a m c main_arg6) (a m c main_arg7) (ix2 e k))
      (fun k => val_main_v70 (F := Ideal) (a m c main_arg0) (a m c main_arg1) (a m c main_arg2) (a m c main_arg3) (a m c main_arg4) (a m c main_arg5) (a m c main_arg6) (a m c main_arg7) (ix2 e k))
      (a m c main_arg8) (fun j => a m c main_arg9 (ix1 j)) (a m c main_arg10) (a m c main_arg11 (ix1 (0 : Fin 1)))
  rw [show (fun k => W14 m ρ c (Proc.devRef .tc main_v34) (ix2 (⟨e.val, by omega⟩ : Fin 1204224) k)) = _ from funext fun k => v34_14 m ρ c hs hd ⟨e.val, by omega⟩ he k,
    show (fun k => W14 m ρ c (Proc.devRef .tc main_v35) (ix2 (⟨e.val, by omega⟩ : Fin 1204224) k)) = _ from funext fun k => v35_14 m ρ c hs hd ⟨e.val, by omega⟩ he k,
    show W14 m ρ c (Proc.devRef .tc main_arg8) = a m c main_arg8 from by chase,
    show W14 m ρ c (Proc.devRef .tc main_arg10) = a m c main_arg10 from by chase,
    show (fun j => W14 m ρ c (Proc.devRef .tc main_v36) (ix2 (0 : Fin 1) j)) = _ from funext (v36_14 m ρ c hs hd),
    v37_14 m ρ c hs hd]

end Cert.KernelIdeal.Chain
end
-- ==== Proof.lean ====
/-
  A two-layer GraphSAGE network over 100000 nodes and 1200000 edges, followed by a per-edge scorer, against its jnp
  reference, over the extended reals.

  Both programs gather node rows at the edges' sources, average them at the destinations (a scatter-add of the rows, a
  scatter-add of ones for the in-degree, the quotient by max(deg, 1)), apply  agg·Wlᵀ + b + h·Wrᵀ  (then max(·,0) in the
  first layer), and score each edge from its two endpoints' rows by  max(cat·W₁ᵀ + b₁, 0)·W₂ᵀ + b₂.  The kernel program
  runs the three dense stages as row-blocked regions (10000 nodes, resp. 8192 edges a block, the edge arrays padded to a
  multiple of the block) and leaves gathers and scatters on the host; the reference does everything on the host.
  At the extended reals a block product into a zero accumulator and the host's dot are the same finite sum, a change of
  float format is the identity, and the blocks tile the rows, so each region's array is the reference's stage row by
  row (`Cert.Sage`); the aggregation stretches are the same operations on both sides.

  One difference is real: the kernel's `jnp.take` fills rows whose id is out of range, the reference's `h[ids]` clamps
  them. The statement therefore carries the evident domain of `edge_index` — every entry a node id, 0 ≤ id < 100000 —
  under which the fill mask is all ones and both read the same row. The frames need no precondition.
-/
import proofs.«424958_j48172353192035_2_alg».proof.Defs
import proofs.«424958_j48172353192035_2_alg».proof.Proof.Gen.Kernel
import proofs.«424958_j48172353192035_2_alg».proof.Proof.Gen.Kernel.Skeleton
import proofs.«424958_j48172353192035_2_alg».proof.Proof.Gen.Kernel.Launch
import proofs.«424958_j48172353192035_2_alg».proof.Proof.Gen.Kernel.Points
import proofs.«424958_j48172353192035_2_alg».proof.Proof.Gen.Kernel.Frame
import proofs.«424958_j48172353192035_2_alg».proof.Proof.Gen.KernelIdeal
import proofs.«424958_j48172353192035_2_alg».proof.Proof.Gen.KernelIdeal.Skeleton
import proofs.«424958_j48172353192035_2_alg».proof.Proof.Gen.KernelIdeal.Launch
import proofs.«424958_j48172353192035_2_alg».proof.Proof.Gen.KernelIdeal.Points
import proofs.«424958_j48172353192035_2_alg».proof.Proof.Gen.KernelIdeal.Frame
import proofs.«424958_j48172353192035_2_alg».proof.Proof.Gen.ReferenceIdeal
import proofs.«424958_j48172353192035_2_alg».proof.Proof.Gen.ReferenceIdeal.Run
import proofs.«424958_j48172353192035_2_alg».proof.Proof.Gen.ReferenceIdeal.Read
import proofs.«424958_j48172353192035_2_alg».proof.Proof.Gen.Pre_finite_inputs
import proofs.«424958_j48172353192035_2_alg».proof.Proof.KernelRun
import proofs.«424958_j48172353192035_2_alg».proof.Proof.PreRange
import proofs.«424958_j48172353192035_2_alg».proof.Proof.RefIds
import proofs.«424958_j48172353192035_2_alg».proof.Proof.Chain
import Idealize.ShloMosaic.Adequacy
import Idealize.ShloMosaic.Init

set_option maxRecDepth 16384

noncomputable section

namespace Cert.Proof

open Idealize.ShloMosaic Idealize.SL.Sem

/-- The word-level kernel program runs and leaves its arguments as launched: the generated frame, which needs no
    precondition (every index the host gathers and scatters with is clamped, dropped or masked by the operation itself). -/
theorem frame_kernel : Cert.frame_Kernel := fun m ρ _ => Cert.Kernel.Gen.frame m ρ
/-- The same program read at the extended reals. -/
theorem frame_kernelIdeal : Cert.frame_KernelIdeal := fun m ρ _ => Cert.KernelIdeal.Gen.frame m ρ
/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every entry of `edge_index` is a node id, so both id vectors sliced out of it are in range. -/
theorem ids_inRange (m : (ℓ : Loc Cert.KernelIdeal.nD Cert.KernelIdeal.τ Cert.KernelIdeal.sig) → Buf (Elt Ideal) ℓ) (hpre : Cert.Pre_KernelIdeal m)
    (c : Dev Cert.KernelIdeal.nD) :
    Cert.KernelIdeal.Take.InRange (Cert.ReferenceIdeal.Read.val_main_v1 (F := Ideal) (m ((c.tc : Thread Cert.KernelIdeal.nD Cert.KernelIdeal.τ).loc Cert.KernelIdeal.main_arg1)))
    ∧ Cert.KernelIdeal.Take.InRange (Cert.ReferenceIdeal.Read.val_main_v3 (F := Ideal) (m ((c.tc : Thread Cert.KernelIdeal.nD Cert.KernelIdeal.τ).loc Cert.KernelIdeal.main_arg1))) := by
  have h := Cert.PreRange.edge_inRange _ _ _ _ _ _ _ _ _ _ _ _ (hpre c)
  exact ⟨Cert.ReferenceIdeal.Ids.src_lt _ h, Cert.ReferenceIdeal.Ids.dst_lt _ h⟩

/-- From memories that agree on the twelve arguments both idealized programs run, and end with the same scores: the
    kernel program's result array is the reference's last stage of the launch arguments (the chain through its host
    stretches and three regions), which is what the reference's run leaves. -/
theorem algebraic : Cert.algebraic_KernelIdeal_ReferenceIdeal := by
  intro m ρ m' ρ' hpre hagree
  refine ⟨fun c => Cert.KernelIdeal.Gen.W16 m ρ c (Proc.devRef .tc Cert.KernelIdeal.main_v39), Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  obtain ⟨hs, hd⟩ := ids_inRange m hpre c
  rw [Cert.ReferenceIdeal.Read.val_main_v83_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2]
  exact (Cert.KernelIdeal.Chain.result m ρ c hs hd).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
